-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S8192 : Shape := ⟨1, ![8192]⟩
abbrev S256x8192 : Shape := ⟨2, ![256, 8192]⟩
abbrev S256 : Shape := ⟨1, ![256]⟩
abbrev S8192x1 : Shape := ⟨2, ![8192, 1]⟩
abbrev S1x1 : Shape := ⟨2, ![1, 1]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩
abbrev S1 : Shape := ⟨1, ![1]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192, .f32⟩
  | .hbm, ⟨3, _⟩ => ⟨S8192, .f32⟩
  | .hbm, ⟨4, _⟩ => ⟨S8192x1, .f32⟩
  | .hbm, ⟨5, _⟩ => ⟨S8192x64, .f32⟩
  | .hbm, ⟨6, _⟩ => ⟨S8192x64, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256, .f32⟩
  | .local _ .vmem, ⟨3, _⟩ => ⟨S256, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  inb_S1x1_S1x1_0_0 : ∀ a, (![0, 0] : Fin 2 → Nat) a + S1x1.size a ≤ S1x1.size a
  h_S1x1 : 0 < S1x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S8192.size a
  hwx0_1 : ∀ i : grid0.Coords, EltTy.bits .f32 = 32 ∨ (Rect.block (s := S8192) S256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  reducesTo_S8192x64_S8192_d1 : S8192x64.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Data.lean ====
/-
  The proof data of the two pipelined regions, at any float values.

  Region 0 sums the rows of W: at grid point t it reads rows 256t … 256t+255 whole and writes their sums.
  Region 1 walks the 8 × 8 tiles of W in row-major order; at tile (i, j) it reads the tile, row block i of Z and row
  block j of Z (both windows on the ONE array Z, each holding half of it), and adds the tile's weighted clipped
  squared distances into a 1 × 1 accumulator that is reset to zero at the first tile, kept between tiles, and
  written back after the last.
  Everything is stated at a parameter V: the contents of the core's buffers when the region is entered.
-/
import proofs.«163685_j4286377361973_1_alg».proof.Proof.Gen.Kernel.Launch
import proofs.«163685_j4286377361973_1_alg».proof.Proof.Gen.Kernel.Skeleton
import proofs.«163685_j4286377361973_1_alg».proof.Proof.Gen.Kernel.Points
import Idealize.ShloMosaic.Lib.Pipeline.FrameBody
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the row sums -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body the input's buffer still holds its block of 256 rows
    and the output's holds those rows' sums; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-! ## Region 1: the weighted distances, accumulated over the tiles -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after tile n: at the first tile the body's sum over what it has just reset to zero, at a later
    tile over what the tile before left. -/
def accAt (c : Dev nD) : (n : ℕ) → n < cfg1.N → Vec F S1x1 .f32
  | 0, h => k1_pay2 (iblk1 V c 1 ⟨0, h⟩) (iblk1 V c 2 ⟨0, h⟩) (iblk1 V c 0 ⟨0, h⟩) (k1_pay1 (F := F))
  | n + 1, h => k1_pay2 (iblk1 V c 1 ⟨n + 1, h⟩) (iblk1 V c 2 ⟨n + 1, h⟩) (iblk1 V c 0 ⟨n + 1, h⟩) (accAt c n (Nat.lt_of_succ_lt h))

theorem accAt_zero (c : Dev nD) (h : 0 < cfg1.N) :
    accAt V c 0 h = k1_pay2 (iblk1 V c 1 ⟨0, h⟩) (iblk1 V c 2 ⟨0, h⟩) (iblk1 V c 0 ⟨0, h⟩) (k1_pay1 (F := F)) := rfl
theorem accAt_succ (c : Dev nD) (n : ℕ) (h : n + 1 < cfg1.N) :
    accAt V c (n + 1) h = k1_pay2 (iblk1 V c 1 ⟨n + 1, h⟩) (iblk1 V c 2 ⟨n + 1, h⟩) (iblk1 V c 0 ⟨n + 1, h⟩) (accAt V c n (Nat.lt_of_succ_lt h)) := rfl

/-- Region 1's proof data: the arrays as found; after the body each input's buffer still holds its block and the
    accumulator's holds the running sum; nothing owed; the tile's array whole, the two windows on Z half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

end Cert.Kernel.Frm

end
-- ==== Proof.K.Body0.lean ====
/- Region 0's body at every grid point: it loads its block of 256 rows whole, sums each row along the lanes, and stores the 256 sums whole. -/
import proofs.«163685_j4286377361973_1_alg».proof.Proof.K.Data
import Idealize.ShloMosaic.Lib.Pipeline.Value

noncomputable section

namespace Cert.Kernel.Frm

open Cert.Kernel Cert.Kernel.Gen Cert.Kernel.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two whole-buffer rectangles

The body touches memory three times, each time through the rectangle that starts at offset zero on every axis and has
the buffer's own extents: such a rectangle is the whole buffer, so a read through it returns the contents unchanged and
a write through it replaces them all. -/

/-- The offsets of the rank-2 access are zero on both axes. -/
private theorem zero_off_block : (![0, 0] : Fin 2 → Nat) = fun _ => 0 := funext fun a => by fin_cases a <;> rfl
/-- The offset of the rank-1 access is zero. -/
private theorem zero_off_sums : (![0] : Fin 1 → Nat) = fun _ => 0 := funext fun a => by fin_cases a; rfl

/-- The rectangle the body reads its 256 × 8192 block through. -/
private abbrev blockRect : Rect S256x8192 := Rect.unit (s := S256x8192) ![0, 0] S256x8192.size inb_S256x8192_S256x8192_0_0
/-- The rectangle the body writes its 256 row sums through. -/
private abbrev sumsRect : Rect S256 := Rect.unit (s := S256) ![0] S256.size inb_S256_S256_0

/-- Reading a block through `blockRect` gives the block itself: the rectangle's index map is the identity. -/
private theorem ld_blockRect (X : Vec F S256x8192 .f32) : View.ld X blockRect = X :=
  View.ld_unit_zero (S := S256x8192) zero_off_block inb_S256x8192_S256x8192_0_0 X

/-- A single write of `w` through `sumsRect` leaves `w` at every index, whatever was there before. -/
private theorem canon_sumsRect (w : Vec F S256 .f32) : View.canon [(⟨sumsRect, w⟩ : View.Piece (Elt F) S256 .f32)] = w :=
  View.canon_unit_zero (S := S256) zero_off_sums inb_S256_S256_0 w

/-- Every index of the 256-entry buffer lies in `sumsRect`, so that one write overwrites the buffer completely. -/
private theorem covers_sumsRect (w : Vec F S256 .f32) (y : S256.Idx) :
    ∃ pc ∈ ([⟨sumsRect, w⟩] : List (View.Piece (Elt F) S256 .f32)), y ∈ pc.1.set :=
  ⟨_, List.mem_singleton_self _, View.mem_set_unit_zero (S := S256) zero_off_sums inb_S256_S256_0 y⟩

/-! ## The kernel on whole buffers -/

set_option maxHeartbeats 1000000 in
/-- Run on a whole input buffer holding the block `x` and a whole output buffer holding anything, the kernel leaves
    the input as it was and the output holding exactly the row sums `k0_pay1 x`: its first load reads `x` (the
    whole-block rectangle), its second load's value is never used, and its one store overwrites all 256 entries with
    the row sums of what the first load read. The grid coordinates `i` play no part. -/
private theorem rowsum_whole (c : Dev nD) (E : Set ℕ) (i : grid0.Coords)
    (src : Memref sig .tc .vmem S256x8192 .f32) (hsrc : src.IsWhole) (dst : Memref sig .tc .vmem S256 .f32) (hdst : dst.IsWhole)
    (x : Vec F S256x8192 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (k0_pay1 x)) -∗ K ⟨⟩))
      ⊢ wp frame (wpE (defs₀ (F := F)) Variants.none c none) E (cc0__rowsum_kernel i src hsrc dst hdst) K := by
  simp only [cc0__rowsum_kernel_eq_skeleton]; unfold cc0__rowsum_kernel_skel
  unfold owns
  iintro ⟨⟨%fs, %hfs, Hs⟩, ⟨%d, %fd, -, Hd⟩, Hk⟩
  subst hfs
  sl_exec
  sl_step
  iapply Hk
  isplitl [Hs]
  · iexists fs; isplitr; · ipureintro; rfl
    iexact Hs
  iexists _; isplitr
  swap; · iexact Hd
  ipureintro
  -- the output buffer after its one covering write reads as that write's payload; the payload's argument, the
  -- input read through the whole-block rectangle, is the input
  rw [View.read_writes_eq_canon _ _ _ (covers_sumsRect _), canon_sumsRect, View.readAt_eq_ld, ld_blockRect]

/-! ## The staging buffers at a grid point -/

/-- When the body is called at point `t` the input's current staging buffer holds block `t` of the input array:
    the window is fetched at every point, is never cut and never idle, and the body leaves the block in place. -/
private theorem in_holds_block (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The library's body obligation for region 0, at every point. -/
theorem body_obligation0 (c : Dev nD) : BodyObligation (dat0 (F := F) V c) (defs₀ (F := F)) Variants.none () Set.univ := by
  intro t
  -- the two windows one by one; nothing is owed before or after, and the invariant does not depend on the point
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)))
  simp only [in_holds_block]
  rw [after0_0, after0_1]
  iintro ⟨HΦ, Ho, ⟨%d0, Hin⟩, ⟨%d1, Hout⟩⟩
  -- the input buffer holds block t, so the kernel leaves it there and fills the output with its row sums
  iapply (rowsum_whole c Set.univ _ _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

end Cert.Kernel.Frm

end
-- ==== Proof.K.Body1.lean ====
/- Region 1's body at every grid point: at the first tile it resets the accumulator to zero; at every tile it loads the two row blocks of Z and the tile of W, forms the tile's weighted clipped squared distances, sums them, and adds the sum to the accumulator. -/
import proofs.«163685_j4286377361973_1_alg».proof.Proof.K.Data
import Idealize.ShloMosaic.Lib.Pipeline.Value

noncomputable section

namespace Cert.Kernel.Frm

open Cert.Kernel Cert.Kernel.Gen Cert.Kernel.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The one conditional: it resets the accumulator at the first tile only -/

/-- The condition of the body's one conditional, from the grid coordinates: both coordinates are zero. -/
private abbrev condReset (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first of the 64 points only. -/
private theorem condReset_iff : ∀ t : Fin cfg1.N, condReset (grid1.coords t) ↔ t.val = 0 :=
  (by decide +kernel : ∀ t : Fin grid1.N, condReset (grid1.coords t) ↔ t.val = 0)

/-- The zero offsets of a rank-2 access, as the constant function. -/
private theorem hz2 : (![0, 0] : Fin 2 → Nat) = fun _ => 0 := funext fun a => by fin_cases a <;> rfl

/-- A store through the whole accumulator, made last, covers it. -/
private theorem cover_acc (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons_self, View.mem_set_unit_zero (S := S1x1) hz2 inb_S1x1_S1x1_0_0 y⟩

/-! ## The body's run, in its two cases -/

set_option maxHeartbeats 1000000 in
/-- THE FIRST TILE. On whole buffers, the tile's at x0 and the two row blocks' at x1 and x2, the accumulator's at
    anything, the body runs to the continuation holding the inputs' as they were and the accumulator's at the tile's
    sum added to the zero it has just stored: the reset covers the accumulator, so the load after it reads the zero
    back, and the last store covers it again. -/
private theorem run_first (c : Dev nD) (E : Set ℕ) (i : grid1.Coords)
    (arg2 : Memref sig .tc .vmem S1024x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x1 .f32) (harg5 : arg5.IsWhole) (hc : condReset i)
    (x0 : Vec F S1024x1024 .f32) (x1 x2 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x1 x2 x0 (k1_pay1 (F := F)))) -∗ K ⟨⟩))
      ⊢ wp frame (wpE (defs₀ (F := F)) Variants.none c none) E (cc1__loss_kernel i arg2 harg2 arg3 harg3 arg4 harg4 arg5 harg5) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [View.read_writes_eq_canon _ _ _ (cover_acc _ _), View.canon_cons_unit_zero (S := S1x1) hz2,
    View.readCov_unit_zero (S := S1x1) _ hz2]
  simp only [View.readAt_eq_ld, harg2.read_unread, harg3.read_unread, harg4.read_unread,
    View.ld_unit_zero (S := S1024x64) hz2, View.ld_unit_zero (S := S1024x1024) hz2]

set_option maxHeartbeats 1000000 in
/-- A LATER TILE. The same, the accumulator's buffer at xa: nothing is reset, and the body leaves the tile's sum
    added to xa, by its one covering store. -/
private theorem run_later (c : Dev nD) (E : Set ℕ) (i : grid1.Coords)
    (arg2 : Memref sig .tc .vmem S1024x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x1 .f32) (harg5 : arg5.IsWhole) (hc : ¬condReset i)
    (x0 : Vec F S1024x1024 .f32) (x1 x2 : Vec F S1024x64 .f32) (xa : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xa
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x1 x2 x0 xa)) -∗ K ⟨⟩))
      ⊢ wp frame (wpE (defs₀ (F := F)) Variants.none c none) E (cc1__loss_kernel i arg2 harg2 arg3 harg3 arg4 harg4 arg5 harg5) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (cover_acc _ _), View.canon_unit_zero (S := S1x1) hz2]
  simp only [View.readAt_eq_ld, harg2.read_unread, harg3.read_unread, harg4.read_unread, harg5.read_unread,
    View.ld_unit_zero (S := S1024x64) hz2, View.ld_unit_zero (S := S1024x1024) hz2, View.ld_unit_zero (S := S1x1) hz2]

/-! ## What the body finds in the staging buffers -/

/-- The tile's buffer holds the tile at every point. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The first row block's buffer holds row block t / 8 at every point, fetched there or not. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The second row block's buffer holds row block t % 8 at every point. -/
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- After the first point the accumulator's buffer holds what the point before left: it is written back after the
    last point only. -/
private theorem before1_3 (c : Dev nD) (t : Fin cfg1.N) (h0 : t.val ≠ 0) (d) :
    (dat1 V c).before 3 t d = accAt V c (t.val - 1) (Nat.lt_of_le_of_lt (Nat.sub_le _ _) t.isLt) := by
  have hN : t.val < 64 := lt_of_lt_of_eq t.isLt (show cfg1.N = 64 from N_1)
  rw [Dat.before_out_kept _ 3 rfl t h0
    (Bool.eq_false_iff.mpr fun h => by have := (flush1_3 _).mp h; dsimp only at this; omega)
    (fun _ => rfl) (fun _ _ => rfl)]
  dsimp only [dat1]

/-- The accumulator after the first point. -/
private theorem accAt_first (c : Dev nD) (t : Fin cfg1.N) (h0 : t.val = 0) :
    accAt V c t.val t.isLt = k1_pay2 (iblk1 V c 1 t) (iblk1 V c 2 t) (iblk1 V c 0 t) (k1_pay1 (F := F)) := by
  obtain ⟨n, hn⟩ := t
  cases n with
  | zero => rfl
  | succ n => exact absurd h0 (Nat.succ_ne_zero n)

/-- The accumulator after a later point, over what the point before left. -/
private theorem accAt_later (c : Dev nD) (t : Fin cfg1.N) (h0 : t.val ≠ 0) :
    accAt V c t.val t.isLt = k1_pay2 (iblk1 V c 1 t) (iblk1 V c 2 t) (iblk1 V c 0 t)
      (accAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
/-- The body at any point: the inputs' buffers hold their blocks; at the first point the accumulator's holds anything
    and the body resets it, at a later point it holds what the point before left; the invariant and what the core
    owes pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val = 0
  · rw [accAt_first V c t h0]
    iintro ⟨HΦ, Ho, ⟨%d0, H0⟩, ⟨%d1, H1⟩, ⟨%d2, H2⟩, ⟨%d3, H3⟩⟩
    iapply (run_first c Set.univ (grid1.coords t) _ _ _ _ _ _ _ _ ((condReset_iff t).mpr h0)
      (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later V c t h0]
    simp only [before1_3 V c t h0]
    iintro ⟨HΦ, Ho, ⟨%d0, H0⟩, ⟨%d1, H1⟩, ⟨%d2, H2⟩, ⟨%d3, H3⟩⟩
    iapply (run_later c Set.univ (grid1.coords t) _ _ _ _ _ _ _ _ (fun h => h0 ((condReset_iff t).mp h))
      (iblk1 V c 0 t) (iblk1 V c 1 t) (iblk1 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.Kernel.Frm

end
-- ==== Proof.K.Launch.lean ====
/-
  The two pipelined regions as segments of the program's run, and the run itself, at any float values.

  Between two items of the program core c holds every buffer that outlives a region at known contents: the launch
  memory; after region 0 the same with the row sums in their array; after the first host stretch those carried through
  the square root, the two broadcasts and the division; after region 1 the same with the accumulated total in its 1 × 1
  array; after the last host stretch that total reshaped and divided. Region 0's arrays are two distinct buffers. Region
  1 reads the array Z through two windows: on entry the buffer is split into two halves, one per window, and on exit
  the halves, which still hold the same contents, are joined again.
-/
import proofs.«163685_j4286377361973_1_alg».proof.Proof.K.Body0
import proofs.«163685_j4286377361973_1_alg».proof.Proof.K.Body1
import proofs.«163685_j4286377361973_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' entries and exits -/

/-- Core c's buffers when region 0 is entered: as launched. -/
abbrev Va (c : Dev nD) (b : Ref sig .tc) : Buf (Elt F) ((c : Thread nD τ).loc b) := Gen.V0 m c b

/-- What region 0 leaves in the row sums' array. -/
def Dout (c : Dev nD) : Buf (Elt F) ((c : Thread nD τ).loc main_v0) := (dat0 (Va m) c).arrAt 1 cfg0.N

/-- Core c's buffers when region 1 is entered: the row sums in place, then the first host stretch. -/
abbrev Wb (c : Dev nD) : Valuation τ sig (Elt F) :=
  StableHlo.after hostOps1 (Function.update (Gen.V0 m c) main_v0 (Dout m c))
abbrev Vb (c : Dev nD) (b : Ref sig .tc) : Buf (Elt F) ((c : Thread nD τ).loc b) := Wb m c b

/-- What region 1 leaves in the 1 × 1 total's array. -/
def Lout (c : Dev nD) : Buf (Elt F) ((c : Thread nD τ).loc main_v5) := (dat1 (Vb m) c).arrAt 3 cfg1.N

/-- What the regions leave, as the family of unknowns the host side of the run is stated over. -/
def outs : Gen.Outs (F := F) := fun _ r c =>
  if h0 : r = main_v0 then h0 ▸ Dout m c else if h5 : r = main_v5 then h5 ▸ Lout m c else m ((c : Thread nD τ).loc r)

theorem outs_v0 (n : ℕ) (c : Dev nD) : outs m n main_v0 c = Dout m c := by
  unfold outs; rw [dif_pos rfl]
theorem outs_v5 (n : ℕ) (c : Dev nD) : outs m n main_v5 c = Lout m c := by
  unfold outs; rw [dif_neg (by decide), dif_pos rfl]

theorem V2_eq (c : Dev nD) : Gen.V2 m (outs m) c = Wb m c := by
  show StableHlo.after hostOps1 (Function.update (Gen.V0 m c) main_v0 (outs m 1 main_v0 c)) = _
  rw [outs_v0]

/-! ## The proof data family -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst (F := F) c

/-! ## Region 0 as a segment -/

/-- At region 0's exit each of its arrays holds what the pipeline leaves: the input as entered, the row sums' array its
    write-backs. -/
theorem hF0 (c : Dev nD) (w : Fin cfg0.W) :
    (pdats m 0 c).arrAt w cfg0.N = Gen.V1 m (outs m) c (Pipeline.arrRef spec0 w) :=
  match w with
  | ⟨0, _⟩ => (((pdats m 0 c).arrAt_in 0 rfl _).trans (A_eq0 (Va m) c 0)).trans (Gen.V1_of m (outs m) c main_arg0 (by decide)).symm
  | ⟨1, _⟩ => by
    show Dout m c = Function.update (Gen.V0 m c) main_v0 (outs m 1 main_v0 c) main_v0
    rw [Function.update_self, outs_v0]

/-- Every other buffer is as it was at entry. -/
theorem hrest0 (c : Dev nD) : ∀ b, b ∉ Finset.univ.image (Pipeline.arrRef spec0) → Gen.V1 m (outs m) c b = Va m c b :=
  fun b hb => Gen.V1_of m (outs m) c b (by
    intro h
    rw [List.mem_singleton] at h
    exact hb (Finset.mem_image.mpr ⟨1, Finset.mem_univ _, h.symm⟩))

set_option backward.isDefEq.respectTransparency.types false in
/-- Region 0 over the thread state: entered from every unscoped buffer at the launch contents, left with the row sums
    in their array. Its two arrays are split out of the unscoped buffers and put back at the exit contents; the
    generator register goes into the region's invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Gen.V0 m c) ∗ Rst c)
  post c := iprop(StableHlo.held (c : Thread nD τ) (Pipeline.ucRefs τ sig) (Gen.V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's buffers: three behind four windows -/

/-- The distinct buffers behind region 1's windows: W, Z and the total, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v4) ↦{fullShare} V main_v4) ∗ (((c : Thread nD τ).loc main_v5) ↦{fullShare} V main_v5)) := by
  unfold Pipeline.arrBufs
  exact bigSep_eq_bigSepL_of_eq [main_arg0, main_v4, main_v5] (by decide) (by decide) _

/-- Region 1's windowed arrays, window by window: W whole, Z's left half for the row-block window, Z's right half for
    the column-block window, the total whole. -/
theorem arrays1_eq (c : Dev nD) (V : (c : Dev nD) → (b : Ref sig .tc) → Buf (Elt F) ((c : Thread nD τ).loc b))
    (Fn : (w : Fin cfg1.W) → Buf (Elt F) ((cfg1.win w).arr.view.loc (c : Thread nD τ))) :
    ((dat1 V c).arrays Fn : sProp 𝕄)
      = iprop((((c : Thread nD τ).loc main_arg0) ↦{fullShare} Fn 0) ∗ (((c : Thread nD τ).loc main_v4) ↦{fullShare.left} Fn 1)
          ∗ (((c : Thread nD τ).loc main_v4) ↦{fullShare.right} Fn 2) ∗ (((c : Thread nD τ).loc main_v5) ↦{fullShare} Fn 3)) := by
  unfold Dat.arrays
  rw [bigSep_W1]
  simp only [(arr_whole1 0).set_eq_univ, (arr_whole1 1).set_eq_univ, (arr_whole1 2).set_eq_univ, (arr_whole1 3).set_eq_univ]
  rfl

/-- The core's unscoped buffers are those three and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec1 c V : sProp 𝕄) ∗ Pipeline.unscopedRest spec1 c V) :=
  Pipeline.unscopedBufs_split₀ cfgs 1 winFacts₀1.arr_unscoped c V

/-! ## Region 1 as a segment -/

/-- ENTRY of region 1: the unscoped buffers at the entry contents give the windows' arrays — the buffer Z split into
    its two halves, one per window — and the rest. -/
theorem hsplit1 (c : Dev nD) :
    (StableHlo.held (c : Thread nD τ) (Pipeline.ucRefs τ sig) (Gen.V2 m (outs m) c) : sProp 𝕄)
      ⊢ iprop((dat1 (Vb m) c).arrays ((dat1 (Vb m) c).arrAt · 0) ∗ Pipeline.unscopedRest (Ix := Unit) (Name := ℕ) (U := UR sig nD τ) (Lvl := ℕ) spec1 c (Vb m c)) := by
  rw [V2_eq, ← Pipeline.unscopedBufs_held c (Wb m c), split1 c (Vb m c), arrBufs1_eq, arrays1_eq]
  iintro ⟨⟨H0, H4, H5⟩, Hrest⟩
  ihave H4' := (pointsTo_share (PosShare.mem_left_op_right fullShare)).1 $$ H4
  icases H4' with ⟨H4l, H4r⟩
  isplitr [Hrest]
  · isplitl [H0]; · iexact H0
    isplitl [H4l]; · iexact H4l
    isplitl [H4r]; · iexact H4r
    iexact H5
  · iexact Hrest

/-- At region 1's exit: W as entered, -/
theorem e1_0 (c : Dev nD) : (dat1 (Vb m) c).arrAt 0 cfg1.N = Gen.V3 m (outs m) c main_arg0 :=
  (((dat1 (Vb m) c).arrAt_in 0 rfl _).trans (A_eq1 (Vb m) c 0)).trans
    ((Gen.V3_of m (outs m) c main_arg0 (by decide)).trans (congrFun (V2_eq m c) _)).symm
/-- Z as entered, through either window, -/
theorem e1_1 (c : Dev nD) : (dat1 (Vb m) c).arrAt 1 cfg1.N = Gen.V3 m (outs m) c main_v4 :=
  (((dat1 (Vb m) c).arrAt_in 1 rfl _).trans (A_eq1 (Vb m) c 1)).trans
    ((Gen.V3_of m (outs m) c main_v4 (by decide)).trans (congrFun (V2_eq m c) _)).symm
theorem e1_2 (c : Dev nD) : (dat1 (Vb m) c).arrAt 2 cfg1.N = Gen.V3 m (outs m) c main_v4 :=
  (((dat1 (Vb m) c).arrAt_in 2 rfl _).trans (A_eq1 (Vb m) c 2)).trans
    ((Gen.V3_of m (outs m) c main_v4 (by decide)).trans (congrFun (V2_eq m c) _)).symm
/-- and the total's array at what its one write-back leaves. -/
theorem e1_3 (c : Dev nD) : (dat1 (Vb m) c).arrAt 3 cfg1.N = Gen.V3 m (outs m) c main_v5 := by
  show Lout m c = Function.update (Gen.V2 m (outs m) c) main_v5 (outs m 3 main_v5 c) main_v5
  rw [Function.update_self, outs_v5]

/-- Every buffer that is no array of region 1 is as it was at entry. -/
theorem rest1_eq (c : Dev nD) :
    (Pipeline.unscopedRest (Ix := Unit) (Name := ℕ) (U := UR sig nD τ) (Lvl := ℕ) spec1 c (Vb m c) : sProp 𝕄)
      = Pipeline.unscopedRest spec1 c (fun b => Gen.V3 m (outs m) c b) := by
  unfold Pipeline.unscopedRest
  exact bigSep_congr fun b hb => by
    have hb' : b ∉ ([main_v5] : List (Ref sig .tc)) := by
      intro h; rw [List.mem_singleton] at h
      exact (Finset.mem_sdiff.mp hb).2 (Finset.mem_image.mpr ⟨3, Finset.mem_univ _, h.symm⟩)
    beta_reduce
    rw [show Gen.V3 m (outs m) c b = Wb m c b from (Gen.V3_of m (outs m) c b hb').trans (congrFun (V2_eq m c) _)]

/-- EXIT of region 1: the windows' arrays at what the pipeline leaves — Z's two halves, still at the same contents,
    joined — and the rest are the unscoped buffers at the exit contents. -/
theorem hjoin1 (c : Dev nD) :
    iprop((dat1 (Vb m) c).arrays ((dat1 (Vb m) c).arrAt · cfg1.N) ∗ Pipeline.unscopedRest (Ix := Unit) (Name := ℕ) (U := UR sig nD τ) (Lvl := ℕ) spec1 c (Vb m c))
      ⊢ (StableHlo.held (c : Thread nD τ) (Pipeline.ucRefs τ sig) (Gen.V3 m (outs m) c) : sProp 𝕄) := by
  rw [← Pipeline.unscopedBufs_held c (Gen.V3 m (outs m) c), split1 c (fun b => Gen.V3 m (outs m) c b), arrBufs1_eq, arrays1_eq, rest1_eq]
  simp only [e1_0, e1_1, e1_2, e1_3]
  iintro ⟨⟨H0, H4l, H4r, H5⟩, Hrest⟩
  ihave H4 := (pointsTo_share (PosShare.mem_left_op_right fullShare)).2 $$ [H4l H4r]
  · isplitl [H4l]; · iexact H4l
    iexact H4r
  isplitr [Hrest]
  · isplitl [H0]; · iexact H0
    isplitl [H4]; · iexact H4
    iexact H5
  · iexact Hrest

set_option backward.isDefEq.respectTransparency.types false in
/-- Region 1 over the thread state: entered after the first host stretch, left with the total in its array. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Gen.V2 m (outs m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    iintro ⟨⟨Hub, Hp, HO⟩, -, -⟩
    ihave H := (hsplit1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin1 m c)
      isplitl [Ha]; · iexact Ha
      iexact Hrest
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float values: from any memory with zero counters every weakly fair execution of the program
    terminates, nothing faulting; the result buffer ends at what the last host stretch computes from the total region 1
    leaves, and the two arguments end as launched. -/
theorem run_named : θ_run defs (onTc (τ := τ) (main (F := F))) ⟨m, fun _ => 0, ρ⟩ (fun r => ∀ c : Dev nD,
      r.2.mem ((c.tc : Thread nD τ).loc main_v7) = Gen.V4 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_dev (pcfgs (F := F)) adm (pdats m) () cellOf_inj emb₁ defs₀ 𝒱₀ L lv m ρ main
    (Gen.segs m (outs m) 𝒱₀ L lv (Est (F := F)) () (pdats m) (reg0 m) (reg1 m))
    (fun c Q => by
      rewrite [main_chain c, Seg.run_eq_chain,
        show (Gen.segs m (outs m) 𝒱₀ L lv (Est (F := F)) () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨Hh, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c =>
      ⟨h c _ (mem_uc main_v7 (by decide)),
        (h c _ (mem_uc main_arg0 (by decide))).trans (Gen.V4_main_arg0 m (outs m) c),
        (h c _ (mem_uc main_arg1 (by decide))).trans (Gen.V4_main_arg1 m (outs m) c)⟩)

/-- THE FRAME, at any float values: the run, its result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Frm

end
-- ==== Proof.KI.Data.lean ====
/-
  The proof data of the two pipelined regions, at any float values.

  Region 0 sums the rows of W: at grid point t it reads rows 256t … 256t+255 whole and writes their sums.
  Region 1 walks the 8 × 8 tiles of W in row-major order; at tile (i, j) it reads the tile, row block i of Z and row
  block j of Z (both windows on the ONE array Z, each holding half of it), and adds the tile's weighted clipped
  squared distances into a 1 × 1 accumulator that is reset to zero at the first tile, kept between tiles, and
  written back after the last.
  Everything is stated at a parameter V: the contents of the core's buffers when the region is entered.
-/
import proofs.«163685_j4286377361973_1_alg».proof.Proof.Gen.KernelIdeal.Launch
import proofs.«163685_j4286377361973_1_alg».proof.Proof.Gen.KernelIdeal.Skeleton
import proofs.«163685_j4286377361973_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the row sums -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body the input's buffer still holds its block of 256 rows
    and the output's holds those rows' sums; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-! ## Region 1: the weighted distances, accumulated over the tiles -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after tile n: at the first tile the body's sum over what it has just reset to zero, at a later
    tile over what the tile before left. -/
def accAt (c : Dev nD) : (n : ℕ) → n < cfg1.N → Vec F S1x1 .f32
  | 0, h => k1_pay2 (iblk1 V c 1 ⟨0, h⟩) (iblk1 V c 2 ⟨0, h⟩) (iblk1 V c 0 ⟨0, h⟩) (k1_pay1 (F := F))
  | n + 1, h => k1_pay2 (iblk1 V c 1 ⟨n + 1, h⟩) (iblk1 V c 2 ⟨n + 1, h⟩) (iblk1 V c 0 ⟨n + 1, h⟩) (accAt c n (Nat.lt_of_succ_lt h))

theorem accAt_zero (c : Dev nD) (h : 0 < cfg1.N) :
    accAt V c 0 h = k1_pay2 (iblk1 V c 1 ⟨0, h⟩) (iblk1 V c 2 ⟨0, h⟩) (iblk1 V c 0 ⟨0, h⟩) (k1_pay1 (F := F)) := rfl
theorem accAt_succ (c : Dev nD) (n : ℕ) (h : n + 1 < cfg1.N) :
    accAt V c (n + 1) h = k1_pay2 (iblk1 V c 1 ⟨n + 1, h⟩) (iblk1 V c 2 ⟨n + 1, h⟩) (iblk1 V c 0 ⟨n + 1, h⟩) (accAt V c n (Nat.lt_of_succ_lt h)) := rfl

/-- Region 1's proof data: the arrays as found; after the body each input's buffer still holds its block and the
    accumulator's holds the running sum; nothing owed; the tile's array whole, the two windows on Z half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

end Cert.KernelIdeal.Frm

end
-- ==== Proof.KI.Body0.lean ====
/- Region 0's body at every grid point: it loads its block of 256 rows whole, sums each row along the lanes, and stores the 256 sums whole. -/
import proofs.«163685_j4286377361973_1_alg».proof.Proof.KI.Data
import Idealize.ShloMosaic.Lib.Pipeline.Value

noncomputable section

namespace Cert.KernelIdeal.Frm

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two whole-buffer rectangles

The body touches memory three times, each time through the rectangle that starts at offset zero on every axis and has
the buffer's own extents: such a rectangle is the whole buffer, so a read through it returns the contents unchanged and
a write through it replaces them all. -/

/-- The offsets of the rank-2 access are zero on both axes. -/
private theorem zero_off_block : (![0, 0] : Fin 2 → Nat) = fun _ => 0 := funext fun a => by fin_cases a <;> rfl
/-- The offset of the rank-1 access is zero. -/
private theorem zero_off_sums : (![0] : Fin 1 → Nat) = fun _ => 0 := funext fun a => by fin_cases a; rfl

/-- The rectangle the body reads its 256 × 8192 block through. -/
private abbrev blockRect : Rect S256x8192 := Rect.unit (s := S256x8192) ![0, 0] S256x8192.size inb_S256x8192_S256x8192_0_0
/-- The rectangle the body writes its 256 row sums through. -/
private abbrev sumsRect : Rect S256 := Rect.unit (s := S256) ![0] S256.size inb_S256_S256_0

/-- Reading a block through `blockRect` gives the block itself: the rectangle's index map is the identity. -/
private theorem ld_blockRect (X : Vec F S256x8192 .f32) : View.ld X blockRect = X :=
  View.ld_unit_zero (S := S256x8192) zero_off_block inb_S256x8192_S256x8192_0_0 X

/-- A single write of `w` through `sumsRect` leaves `w` at every index, whatever was there before. -/
private theorem canon_sumsRect (w : Vec F S256 .f32) : View.canon [(⟨sumsRect, w⟩ : View.Piece (Elt F) S256 .f32)] = w :=
  View.canon_unit_zero (S := S256) zero_off_sums inb_S256_S256_0 w

/-- Every index of the 256-entry buffer lies in `sumsRect`, so that one write overwrites the buffer completely. -/
private theorem covers_sumsRect (w : Vec F S256 .f32) (y : S256.Idx) :
    ∃ pc ∈ ([⟨sumsRect, w⟩] : List (View.Piece (Elt F) S256 .f32)), y ∈ pc.1.set :=
  ⟨_, List.mem_singleton_self _, View.mem_set_unit_zero (S := S256) zero_off_sums inb_S256_S256_0 y⟩

/-! ## The kernel on whole buffers -/

set_option maxHeartbeats 1000000 in
/-- Run on a whole input buffer holding the block `x` and a whole output buffer holding anything, the kernel leaves
    the input as it was and the output holding exactly the row sums `k0_pay1 x`: its first load reads `x` (the
    whole-block rectangle), its second load's value is never used, and its one store overwrites all 256 entries with
    the row sums of what the first load read. The grid coordinates `i` play no part. -/
private theorem rowsum_whole (c : Dev nD) (E : Set ℕ) (i : grid0.Coords)
    (src : Memref sig .tc .vmem S256x8192 .f32) (hsrc : src.IsWhole) (dst : Memref sig .tc .vmem S256 .f32) (hdst : dst.IsWhole)
    (x : Vec F S256x8192 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (k0_pay1 x)) -∗ K ⟨⟩))
      ⊢ wp frame (wpE (defs₀ (F := F)) Variants.none c none) E (cc0__rowsum_kernel i src hsrc dst hdst) K := by
  simp only [cc0__rowsum_kernel_eq_skeleton]; unfold cc0__rowsum_kernel_skel
  unfold owns
  iintro ⟨⟨%fs, %hfs, Hs⟩, ⟨%d, %fd, -, Hd⟩, Hk⟩
  subst hfs
  sl_exec
  sl_step
  iapply Hk
  isplitl [Hs]
  · iexists fs; isplitr; · ipureintro; rfl
    iexact Hs
  iexists _; isplitr
  swap; · iexact Hd
  ipureintro
  -- the output buffer after its one covering write reads as that write's payload; the payload's argument, the
  -- input read through the whole-block rectangle, is the input
  rw [View.read_writes_eq_canon _ _ _ (covers_sumsRect _), canon_sumsRect, View.readAt_eq_ld, ld_blockRect]

/-! ## The staging buffers at a grid point -/

/-- When the body is called at point `t` the input's current staging buffer holds block `t` of the input array:
    the window is fetched at every point, is never cut and never idle, and the body leaves the block in place. -/
private theorem in_holds_block (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The library's body obligation for region 0, at every point. -/
theorem body_obligation0 (c : Dev nD) : BodyObligation (dat0 (F := F) V c) (defs₀ (F := F)) Variants.none () Set.univ := by
  intro t
  -- the two windows one by one; nothing is owed before or after, and the invariant does not depend on the point
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)))
  simp only [in_holds_block]
  rw [after0_0, after0_1]
  iintro ⟨HΦ, Ho, ⟨%d0, Hin⟩, ⟨%d1, Hout⟩⟩
  -- the input buffer holds block t, so the kernel leaves it there and fills the output with its row sums
  iapply (rowsum_whole c Set.univ _ _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

end Cert.KernelIdeal.Frm

end
-- ==== Proof.KI.Body1.lean ====
/- Region 1's body at every grid point: at the first tile it resets the accumulator to zero; at every tile it loads the two row blocks of Z and the tile of W, forms the tile's weighted clipped squared distances, sums them, and adds the sum to the accumulator. -/
import proofs.«163685_j4286377361973_1_alg».proof.Proof.KI.Data
import Idealize.ShloMosaic.Lib.Pipeline.Value

noncomputable section

namespace Cert.KernelIdeal.Frm

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The one conditional: it resets the accumulator at the first tile only -/

/-- The condition of the body's one conditional, from the grid coordinates: both coordinates are zero. -/
private abbrev condReset (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first of the 64 points only. -/
private theorem condReset_iff : ∀ t : Fin cfg1.N, condReset (grid1.coords t) ↔ t.val = 0 :=
  (by decide +kernel : ∀ t : Fin grid1.N, condReset (grid1.coords t) ↔ t.val = 0)

/-- The zero offsets of a rank-2 access, as the constant function. -/
private theorem hz2 : (![0, 0] : Fin 2 → Nat) = fun _ => 0 := funext fun a => by fin_cases a <;> rfl

/-- A store through the whole accumulator, made last, covers it. -/
private theorem cover_acc (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons_self, View.mem_set_unit_zero (S := S1x1) hz2 inb_S1x1_S1x1_0_0 y⟩

/-! ## The body's run, in its two cases -/

set_option maxHeartbeats 1000000 in
/-- THE FIRST TILE. On whole buffers, the tile's at x0 and the two row blocks' at x1 and x2, the accumulator's at
    anything, the body runs to the continuation holding the inputs' as they were and the accumulator's at the tile's
    sum added to the zero it has just stored: the reset covers the accumulator, so the load after it reads the zero
    back, and the last store covers it again. -/
private theorem run_first (c : Dev nD) (E : Set ℕ) (i : grid1.Coords)
    (arg2 : Memref sig .tc .vmem S1024x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x1 .f32) (harg5 : arg5.IsWhole) (hc : condReset i)
    (x0 : Vec F S1024x1024 .f32) (x1 x2 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x1 x2 x0 (k1_pay1 (F := F)))) -∗ K ⟨⟩))
      ⊢ wp frame (wpE (defs₀ (F := F)) Variants.none c none) E (cc1__loss_kernel i arg2 harg2 arg3 harg3 arg4 harg4 arg5 harg5) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [View.read_writes_eq_canon _ _ _ (cover_acc _ _), View.canon_cons_unit_zero (S := S1x1) hz2,
    View.readCov_unit_zero (S := S1x1) _ hz2]
  simp only [View.readAt_eq_ld, harg2.read_unread, harg3.read_unread, harg4.read_unread,
    View.ld_unit_zero (S := S1024x64) hz2, View.ld_unit_zero (S := S1024x1024) hz2]

set_option maxHeartbeats 1000000 in
/-- A LATER TILE. The same, the accumulator's buffer at xa: nothing is reset, and the body leaves the tile's sum
    added to xa, by its one covering store. -/
private theorem run_later (c : Dev nD) (E : Set ℕ) (i : grid1.Coords)
    (arg2 : Memref sig .tc .vmem S1024x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x1 .f32) (harg5 : arg5.IsWhole) (hc : ¬condReset i)
    (x0 : Vec F S1024x1024 .f32) (x1 x2 : Vec F S1024x64 .f32) (xa : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xa
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x1 x2 x0 xa)) -∗ K ⟨⟩))
      ⊢ wp frame (wpE (defs₀ (F := F)) Variants.none c none) E (cc1__loss_kernel i arg2 harg2 arg3 harg3 arg4 harg4 arg5 harg5) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (cover_acc _ _), View.canon_unit_zero (S := S1x1) hz2]
  simp only [View.readAt_eq_ld, harg2.read_unread, harg3.read_unread, harg4.read_unread, harg5.read_unread,
    View.ld_unit_zero (S := S1024x64) hz2, View.ld_unit_zero (S := S1024x1024) hz2, View.ld_unit_zero (S := S1x1) hz2]

/-! ## What the body finds in the staging buffers -/

/-- The tile's buffer holds the tile at every point. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The first row block's buffer holds row block t / 8 at every point, fetched there or not. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The second row block's buffer holds row block t % 8 at every point. -/
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- After the first point the accumulator's buffer holds what the point before left: it is written back after the
    last point only. -/
private theorem before1_3 (c : Dev nD) (t : Fin cfg1.N) (h0 : t.val ≠ 0) (d) :
    (dat1 V c).before 3 t d = accAt V c (t.val - 1) (Nat.lt_of_le_of_lt (Nat.sub_le _ _) t.isLt) := by
  have hN : t.val < 64 := lt_of_lt_of_eq t.isLt (show cfg1.N = 64 from N_1)
  rw [Dat.before_out_kept _ 3 rfl t h0
    (Bool.eq_false_iff.mpr fun h => by have := (flush1_3 _).mp h; dsimp only at this; omega)
    (fun _ => rfl) (fun _ _ => rfl)]
  dsimp only [dat1]

/-- The accumulator after the first point. -/
private theorem accAt_first (c : Dev nD) (t : Fin cfg1.N) (h0 : t.val = 0) :
    accAt V c t.val t.isLt = k1_pay2 (iblk1 V c 1 t) (iblk1 V c 2 t) (iblk1 V c 0 t) (k1_pay1 (F := F)) := by
  obtain ⟨n, hn⟩ := t
  cases n with
  | zero => rfl
  | succ n => exact absurd h0 (Nat.succ_ne_zero n)

/-- The accumulator after a later point, over what the point before left. -/
private theorem accAt_later (c : Dev nD) (t : Fin cfg1.N) (h0 : t.val ≠ 0) :
    accAt V c t.val t.isLt = k1_pay2 (iblk1 V c 1 t) (iblk1 V c 2 t) (iblk1 V c 0 t)
      (accAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
/-- The body at any point: the inputs' buffers hold their blocks; at the first point the accumulator's holds anything
    and the body resets it, at a later point it holds what the point before left; the invariant and what the core
    owes pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val = 0
  · rw [accAt_first V c t h0]
    iintro ⟨HΦ, Ho, ⟨%d0, H0⟩, ⟨%d1, H1⟩, ⟨%d2, H2⟩, ⟨%d3, H3⟩⟩
    iapply (run_first c Set.univ (grid1.coords t) _ _ _ _ _ _ _ _ ((condReset_iff t).mpr h0)
      (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later V c t h0]
    simp only [before1_3 V c t h0]
    iintro ⟨HΦ, Ho, ⟨%d0, H0⟩, ⟨%d1, H1⟩, ⟨%d2, H2⟩, ⟨%d3, H3⟩⟩
    iapply (run_later c Set.univ (grid1.coords t) _ _ _ _ _ _ _ _ (fun h => h0 ((condReset_iff t).mp h))
      (iblk1 V c 0 t) (iblk1 V c 1 t) (iblk1 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Frm

end
-- ==== Proof.KI.Launch.lean ====
/-
  The two pipelined regions as segments of the program's run, and the run itself, at any float values.

  Between two items of the program core c holds every buffer that outlives a region at known contents: the launch
  memory; after region 0 the same with the row sums in their array; after the first host stretch those carried through
  the square root, the two broadcasts and the division; after region 1 the same with the accumulated total in its 1 × 1
  array; after the last host stretch that total reshaped and divided. Region 0's arrays are two distinct buffers. Region
  1 reads the array Z through two windows: on entry the buffer is split into two halves, one per window, and on exit
  the halves, which still hold the same contents, are joined again.
-/
import proofs.«163685_j4286377361973_1_alg».proof.Proof.KI.Body0
import proofs.«163685_j4286377361973_1_alg».proof.Proof.KI.Body1
import proofs.«163685_j4286377361973_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' entries and exits -/

/-- Core c's buffers when region 0 is entered: as launched. -/
abbrev Va (c : Dev nD) (b : Ref sig .tc) : Buf (Elt F) ((c : Thread nD τ).loc b) := Gen.V0 m c b

/-- What region 0 leaves in the row sums' array. -/
def Dout (c : Dev nD) : Buf (Elt F) ((c : Thread nD τ).loc main_v0) := (dat0 (Va m) c).arrAt 1 cfg0.N

/-- Core c's buffers when region 1 is entered: the row sums in place, then the first host stretch. -/
abbrev Wb (c : Dev nD) : Valuation τ sig (Elt F) :=
  StableHlo.after hostOps1 (Function.update (Gen.V0 m c) main_v0 (Dout m c))
abbrev Vb (c : Dev nD) (b : Ref sig .tc) : Buf (Elt F) ((c : Thread nD τ).loc b) := Wb m c b

/-- What region 1 leaves in the 1 × 1 total's array. -/
def Lout (c : Dev nD) : Buf (Elt F) ((c : Thread nD τ).loc main_v5) := (dat1 (Vb m) c).arrAt 3 cfg1.N

/-- What the regions leave, as the family of unknowns the host side of the run is stated over. -/
def outs : Gen.Outs (F := F) := fun _ r c =>
  if h0 : r = main_v0 then h0 ▸ Dout m c else if h5 : r = main_v5 then h5 ▸ Lout m c else m ((c : Thread nD τ).loc r)

theorem outs_v0 (n : ℕ) (c : Dev nD) : outs m n main_v0 c = Dout m c := by
  unfold outs; rw [dif_pos rfl]
theorem outs_v5 (n : ℕ) (c : Dev nD) : outs m n main_v5 c = Lout m c := by
  unfold outs; rw [dif_neg (by decide), dif_pos rfl]

theorem V2_eq (c : Dev nD) : Gen.V2 m (outs m) c = Wb m c := by
  show StableHlo.after hostOps1 (Function.update (Gen.V0 m c) main_v0 (outs m 1 main_v0 c)) = _
  rw [outs_v0]

/-! ## The proof data family -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst (F := F) c

/-! ## Region 0 as a segment -/

/-- At region 0's exit each of its arrays holds what the pipeline leaves: the input as entered, the row sums' array its
    write-backs. -/
theorem hF0 (c : Dev nD) (w : Fin cfg0.W) :
    (pdats m 0 c).arrAt w cfg0.N = Gen.V1 m (outs m) c (Pipeline.arrRef spec0 w) :=
  match w with
  | ⟨0, _⟩ => (((pdats m 0 c).arrAt_in 0 rfl _).trans (A_eq0 (Va m) c 0)).trans (Gen.V1_of m (outs m) c main_arg0 (by decide)).symm
  | ⟨1, _⟩ => by
    show Dout m c = Function.update (Gen.V0 m c) main_v0 (outs m 1 main_v0 c) main_v0
    rw [Function.update_self, outs_v0]

/-- Every other buffer is as it was at entry. -/
theorem hrest0 (c : Dev nD) : ∀ b, b ∉ Finset.univ.image (Pipeline.arrRef spec0) → Gen.V1 m (outs m) c b = Va m c b :=
  fun b hb => Gen.V1_of m (outs m) c b (by
    intro h
    rw [List.mem_singleton] at h
    exact hb (Finset.mem_image.mpr ⟨1, Finset.mem_univ _, h.symm⟩))

set_option backward.isDefEq.respectTransparency.types false in
/-- Region 0 over the thread state: entered from every unscoped buffer at the launch contents, left with the row sums
    in their array. Its two arrays are split out of the unscoped buffers and put back at the exit contents; the
    generator register goes into the region's invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Gen.V0 m c) ∗ Rst c)
  post c := iprop(StableHlo.held (c : Thread nD τ) (Pipeline.ucRefs τ sig) (Gen.V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's buffers: three behind four windows -/

/-- The distinct buffers behind region 1's windows: W, Z and the total, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v4) ↦{fullShare} V main_v4) ∗ (((c : Thread nD τ).loc main_v5) ↦{fullShare} V main_v5)) := by
  unfold Pipeline.arrBufs
  exact bigSep_eq_bigSepL_of_eq [main_arg0, main_v4, main_v5] (by decide) (by decide) _

/-- Region 1's windowed arrays, window by window: W whole, Z's left half for the row-block window, Z's right half for
    the column-block window, the total whole. -/
theorem arrays1_eq (c : Dev nD) (V : (c : Dev nD) → (b : Ref sig .tc) → Buf (Elt F) ((c : Thread nD τ).loc b))
    (Fn : (w : Fin cfg1.W) → Buf (Elt F) ((cfg1.win w).arr.view.loc (c : Thread nD τ))) :
    ((dat1 V c).arrays Fn : sProp 𝕄)
      = iprop((((c : Thread nD τ).loc main_arg0) ↦{fullShare} Fn 0) ∗ (((c : Thread nD τ).loc main_v4) ↦{fullShare.left} Fn 1)
          ∗ (((c : Thread nD τ).loc main_v4) ↦{fullShare.right} Fn 2) ∗ (((c : Thread nD τ).loc main_v5) ↦{fullShare} Fn 3)) := by
  unfold Dat.arrays
  rw [bigSep_W1]
  simp only [(arr_whole1 0).set_eq_univ, (arr_whole1 1).set_eq_univ, (arr_whole1 2).set_eq_univ, (arr_whole1 3).set_eq_univ]
  rfl

/-- The core's unscoped buffers are those three and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec1 c V : sProp 𝕄) ∗ Pipeline.unscopedRest spec1 c V) :=
  Pipeline.unscopedBufs_split₀ cfgs 1 winFacts₀1.arr_unscoped c V

/-! ## Region 1 as a segment -/

/-- ENTRY of region 1: the unscoped buffers at the entry contents give the windows' arrays — the buffer Z split into
    its two halves, one per window — and the rest. -/
theorem hsplit1 (c : Dev nD) :
    (StableHlo.held (c : Thread nD τ) (Pipeline.ucRefs τ sig) (Gen.V2 m (outs m) c) : sProp 𝕄)
      ⊢ iprop((dat1 (Vb m) c).arrays ((dat1 (Vb m) c).arrAt · 0) ∗ Pipeline.unscopedRest (Ix := Unit) (Name := ℕ) (U := UR sig nD τ) (Lvl := ℕ) spec1 c (Vb m c)) := by
  rw [V2_eq, ← Pipeline.unscopedBufs_held c (Wb m c), split1 c (Vb m c), arrBufs1_eq, arrays1_eq]
  iintro ⟨⟨H0, H4, H5⟩, Hrest⟩
  ihave H4' := (pointsTo_share (PosShare.mem_left_op_right fullShare)).1 $$ H4
  icases H4' with ⟨H4l, H4r⟩
  isplitr [Hrest]
  · isplitl [H0]; · iexact H0
    isplitl [H4l]; · iexact H4l
    isplitl [H4r]; · iexact H4r
    iexact H5
  · iexact Hrest

/-- At region 1's exit: W as entered, -/
theorem e1_0 (c : Dev nD) : (dat1 (Vb m) c).arrAt 0 cfg1.N = Gen.V3 m (outs m) c main_arg0 :=
  (((dat1 (Vb m) c).arrAt_in 0 rfl _).trans (A_eq1 (Vb m) c 0)).trans
    ((Gen.V3_of m (outs m) c main_arg0 (by decide)).trans (congrFun (V2_eq m c) _)).symm
/-- Z as entered, through either window, -/
theorem e1_1 (c : Dev nD) : (dat1 (Vb m) c).arrAt 1 cfg1.N = Gen.V3 m (outs m) c main_v4 :=
  (((dat1 (Vb m) c).arrAt_in 1 rfl _).trans (A_eq1 (Vb m) c 1)).trans
    ((Gen.V3_of m (outs m) c main_v4 (by decide)).trans (congrFun (V2_eq m c) _)).symm
theorem e1_2 (c : Dev nD) : (dat1 (Vb m) c).arrAt 2 cfg1.N = Gen.V3 m (outs m) c main_v4 :=
  (((dat1 (Vb m) c).arrAt_in 2 rfl _).trans (A_eq1 (Vb m) c 2)).trans
    ((Gen.V3_of m (outs m) c main_v4 (by decide)).trans (congrFun (V2_eq m c) _)).symm
/-- and the total's array at what its one write-back leaves. -/
theorem e1_3 (c : Dev nD) : (dat1 (Vb m) c).arrAt 3 cfg1.N = Gen.V3 m (outs m) c main_v5 := by
  show Lout m c = Function.update (Gen.V2 m (outs m) c) main_v5 (outs m 3 main_v5 c) main_v5
  rw [Function.update_self, outs_v5]

/-- Every buffer that is no array of region 1 is as it was at entry. -/
theorem rest1_eq (c : Dev nD) :
    (Pipeline.unscopedRest (Ix := Unit) (Name := ℕ) (U := UR sig nD τ) (Lvl := ℕ) spec1 c (Vb m c) : sProp 𝕄)
      = Pipeline.unscopedRest spec1 c (fun b => Gen.V3 m (outs m) c b) := by
  unfold Pipeline.unscopedRest
  exact bigSep_congr fun b hb => by
    have hb' : b ∉ ([main_v5] : List (Ref sig .tc)) := by
      intro h; rw [List.mem_singleton] at h
      exact (Finset.mem_sdiff.mp hb).2 (Finset.mem_image.mpr ⟨3, Finset.mem_univ _, h.symm⟩)
    beta_reduce
    rw [show Gen.V3 m (outs m) c b = Wb m c b from (Gen.V3_of m (outs m) c b hb').trans (congrFun (V2_eq m c) _)]

/-- EXIT of region 1: the windows' arrays at what the pipeline leaves — Z's two halves, still at the same contents,
    joined — and the rest are the unscoped buffers at the exit contents. -/
theorem hjoin1 (c : Dev nD) :
    iprop((dat1 (Vb m) c).arrays ((dat1 (Vb m) c).arrAt · cfg1.N) ∗ Pipeline.unscopedRest (Ix := Unit) (Name := ℕ) (U := UR sig nD τ) (Lvl := ℕ) spec1 c (Vb m c))
      ⊢ (StableHlo.held (c : Thread nD τ) (Pipeline.ucRefs τ sig) (Gen.V3 m (outs m) c) : sProp 𝕄) := by
  rw [← Pipeline.unscopedBufs_held c (Gen.V3 m (outs m) c), split1 c (fun b => Gen.V3 m (outs m) c b), arrBufs1_eq, arrays1_eq, rest1_eq]
  simp only [e1_0, e1_1, e1_2, e1_3]
  iintro ⟨⟨H0, H4l, H4r, H5⟩, Hrest⟩
  ihave H4 := (pointsTo_share (PosShare.mem_left_op_right fullShare)).2 $$ [H4l H4r]
  · isplitl [H4l]; · iexact H4l
    iexact H4r
  isplitr [Hrest]
  · isplitl [H0]; · iexact H0
    isplitl [H4]; · iexact H4
    iexact H5
  · iexact Hrest

set_option backward.isDefEq.respectTransparency.types false in
/-- Region 1 over the thread state: entered after the first host stretch, left with the total in its array. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Gen.V2 m (outs m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    iintro ⟨⟨Hub, Hp, HO⟩, -, -⟩
    ihave H := (hsplit1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin1 m c)
      isplitl [Ha]; · iexact Ha
      iexact Hrest
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float values: from any memory with zero counters every weakly fair execution of the program
    terminates, nothing faulting; the result buffer ends at what the last host stretch computes from the total region 1
    leaves, and the two arguments end as launched. -/
theorem run_named : θ_run defs (onTc (τ := τ) (main (F := F))) ⟨m, fun _ => 0, ρ⟩ (fun r => ∀ c : Dev nD,
      r.2.mem ((c.tc : Thread nD τ).loc main_v7) = Gen.V4 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_dev (pcfgs (F := F)) adm (pdats m) () cellOf_inj emb₁ defs₀ 𝒱₀ L lv m ρ main
    (Gen.segs m (outs m) 𝒱₀ L lv (Est (F := F)) () (pdats m) (reg0 m) (reg1 m))
    (fun c Q => by
      rewrite [main_chain c, Seg.run_eq_chain,
        show (Gen.segs m (outs m) 𝒱₀ L lv (Est (F := F)) () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨Hh, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c =>
      ⟨h c _ (mem_uc main_v7 (by decide)),
        (h c _ (mem_uc main_arg0 (by decide))).trans (Gen.V4_main_arg0 m (outs m) c),
        (h c _ (mem_uc main_arg1 (by decide))).trans (Gen.V4_main_arg1 m (outs m) c)⟩)

/-- THE FRAME, at any float values: the run, its result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Frm

end
-- ==== Proof.Spec.lean ====
/-
  The mathematics both programs compute, over the extended reals.

  From a weight matrix W [8192, 8192] and an array Z [8192, 64] (the rows of Y divided by the square roots of the row
  sums of W; here Z is any array), the loss before its final scaling is the total, over all pairs of rows (r, c), of
  W(r, c) times the clipped squared distance  max(|Z_r|² + |Z_c|² − 2·⟨Z_r, Z_c⟩, 0).
  The kernel walks the pairs tile by tile: the 8 × 8 tiles of 1024 × 1024 pairs in row-major order, each tile summed
  by rows and then over the rows, the tiles' sums accumulated from zero. The reference sums all pairs at once.
-/
import Idealize.ShloMosaic.Lib.ValueIdx
import Idealize.ShloMosaic.PureOps.Ideal.Laws

noncomputable section

namespace Cert.Spec

open Idealize.ShloMosaic Idealize.ShloMosaic.ValueIdx

abbrev SW : Shape := ⟨2, ![8192, 8192]⟩
abbrev SZ : Shape := ⟨2, ![8192, 64]⟩

variable (W : SW.Idx → EReal) (Z : SZ.Idx → EReal)

/-- The squared length of row r of Z. -/
def sq (r : Fin 8192) : EReal := ∑ k : Fin 64, Z (ix2 r k) * Z (ix2 r k)

/-- The inner product of rows r and c of Z. -/
def dotp (r c : Fin 8192) : EReal := ∑ k : Fin 64, Z (ix2 r k) * Z (ix2 c k)

/-- The pair (r, c)'s term: its weight times its squared distance, clipped below at zero. The constants two and
    zero are kept as the words both programs print. -/
def term (r c : Fin 8192) : EReal :=
  W (ix2 r c) * max ((sq Z r + sq Z c) - (Ideal.ofBits .f32 0x40000000#32 : EReal) * dotp Z r c) (Ideal.ofBits .f32 0x00000000#32 : EReal)

/-- The total over all pairs. -/
def tot : EReal := ∑ r : Fin 8192, ∑ c : Fin 8192, term W Z r c

/-- Row r of tile-row i. -/
def rowOf (i : Fin 8) (r : Fin 1024) : Fin 8192 := ⟨1024 * i.val + r.val, by have := i.isLt; have := r.isLt; omega⟩

/-- Tile (i, j)'s share of the total: its rows' sums, summed. -/
def blockTot (i j : Fin 8) : EReal := ∑ r : Fin 1024, ∑ c : Fin 1024, term W Z (rowOf i r) (rowOf j c)

/-- Tile number n, in row-major order, is tile (n / 8, n % 8). -/
def tileRow (n : ℕ) (h : n < 64) : Fin 8 := ⟨n / 8, by omega⟩
def tileCol (n : ℕ) (_h : n < 64) : Fin 8 := ⟨n % 8, by omega⟩

/-- The accumulator after tile n: zero plus tile 0's share, then plus each later tile's share, in order. -/
def chainAt : (n : ℕ) → n < 64 → EReal
  | 0, h => (Ideal.ofBits .f32 0x00000000#32 : EReal) + blockTot W Z (tileRow 0 h) (tileCol 0 h)
  | n + 1, h => chainAt n (Nat.lt_of_succ_lt h) + blockTot W Z (tileRow (n + 1) h) (tileCol (n + 1) h)

/-! ## From the arguments to the loss -/

abbrev SD : Shape := ⟨1, ![8192]⟩
abbrev SD1 : Shape := ⟨2, ![8192, 1]⟩
abbrev S0 : Shape := ⟨0, ![]⟩

/-- Row r's degree: the sum of row r of W. -/
def deg (r : Fin 8192) : EReal := ∑ k : Fin 8192, W (ix2 r k)

/-- The degree vector as an array. -/
def rowsum : SD.Idx → EReal := fun i => deg W ⟨(i 0).val, (i 0).isLt⟩

theorem rowsum_ix1 (p : Fin 8192) : rowsum W (ix1 p) = deg W p := rfl

/-- Y with each row divided by the square root of the row's degree, written with the host operations both programs
    apply (a square root, the vector as a column, the column across the 64 entries, a division). -/
def zOf (h1 : SD.BroadcastsInDim SD1 (![0] : Fin 1 → Fin SD1.rank)) (h2 : SD1.BroadcastsInDim SZ (![0, 1] : Fin 2 → Fin SZ.rank))
    (D : SD.Idx → EReal) (Y : SZ.Idx → EReal) : SZ.Idx → EReal :=
  Host.divf (F := Ideal) (φ := .f32) Y (broadcastInDim SZ ![0, 1] h2 (broadcastInDim SD1 ![0] h1 (Host.sqrt (F := Ideal) (φ := .f32) D)))

/-- The loss: the total over all pairs for Z made from W's degrees and Y, divided by 2 · 8192 (the word both
    programs print). -/
def loss (h1 : SD.BroadcastsInDim SD1 (![0] : Fin 1 → Fin SD1.rank)) (h2 : SD1.BroadcastsInDim SZ (![0, 1] : Fin 2 → Fin SZ.rank))
    (Y : SZ.Idx → EReal) : S0.Idx → EReal :=
  Host.divf (F := Ideal) (φ := .f32) (fun _ => tot W (zOf h1 h2 (rowsum W) Y)) (constant (F := Ideal) S0 .f32 0x46800000#32)

end Cert.Spec

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KI.Value0.lean ====
/- What region 0 leaves in its result array, at the ideal values: entry p is the sum of row p of W. -/
import proofs.«163685_j4286377361973_1_alg».proof.Proof.KI.Data
import proofs.«163685_j4286377361973_1_alg».proof.Proof.Spec
import proofs.«163685_j4286377361973_1_alg».proof.Proof.LibKeepdims
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The block indices of region 0's two windows at grid point t: the input's block is row block t (and the one column
    block), the output's is block t. -/
private theorem blockIndex0 : ∀ t : Fin cfg0.N, win0_0.index t 0 = t.val ∧ win0_0.index t 1 = 0 ∧ win0_1.index t 0 = t.val :=
  (by decide +kernel : ∀ t : Fin grid0.N, win0_0.index t 0 = t.val ∧ win0_0.index t 1 = 0 ∧ win0_1.index t 0 = t.val)

/-- Entry (r, k) of the input block at point t is entry (256 t + r, k) of W. -/
private theorem iblk0_apply (c : Dev nD) (t : Fin cfg0.N) (r : Fin 256) (k : Fin 8192) (h : 256 * t.val + r.val < 8192) :
    (iblk0 (F := Ideal) V c 0 t : Vec Ideal S256x8192 .f32) (ix2 r k)
      = (V c main_arg0 : Cert.Spec.SW.Idx → EReal) (ix2 ⟨256 * t.val + r.val, h⟩ k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 256 + 1 * r.val = 256 * t.val + r.val; rw [e0]; omega
  | ⟨1, _⟩ => show win0_0.index t 1 * 8192 + 1 * k.val = k.val; rw [e1]; omega

/-- The body's result at row r of a block whose row r is row p of W: the lane sum from the zero word is the plain sum
    of the row, which is row p's degree. -/
private theorem pay_row (B : FVec Ideal S256x8192 .f32) (W : Cert.Spec.SW.Idx → EReal) (r : Fin 256) (p : Fin 8192)
    (h : ∀ k : Fin 8192, B (ix2 r k) = W (ix2 p k)) :
    k0_pay1 (F := Ideal) B (ix1 r) = Cert.Spec.deg W p := by
  unfold k0_pay1
  exact (Cert.LibKeepdims.lane_sum_apply (a := 256) (b := 8192) B reduces_S256x8192_S256 (.inl rfl) rfl r).trans
    (Finset.sum_congr rfl fun k _ => h k)

/-- What point t writes back is block t of the row sums of W: the body's lane sum at row r of the block is the sum of
    row 256 t + r of W, and the output block's entry r is array entry 256 t + r. -/
private theorem flushed0_eq (c : Dev nD) (t : Fin cfg0.N) :
    (dat0 (F := Ideal) V c).flushed 1 t = ((cfg0.win 1).blk t).view.read (Elt Ideal) (Cert.Spec.rowsum (V c main_arg0)) := by
  show (cfg0.win 1).cut (grid0.coords t) ((dat0 (F := Ideal) V c).after 1 t) = _
  rw [after0_1]
  obtain ⟨-, -, e2⟩ := blockIndex0 t
  have ht : t.val < 32 := lt_of_lt_of_eq t.isLt N_0
  funext y
  obtain ⟨r, rfl⟩ : ∃ r : Fin 256, y = ix1 r := ⟨y 0, eq_ix1 (n := 256) y⟩
  have hlt : 256 * t.val + r.val < 8192 := by have := r.isLt; omega
  show k0_pay1 (F := Ideal) (iblk0 V c 0 t) (ix1 r) = _
  refine (pay_row (iblk0 (F := Ideal) V c 0 t) (V c main_arg0) r ⟨256 * t.val + r.val, hlt⟩
    fun k => iblk0_apply V c t r k hlt).trans ?_
  rw [View.read_apply]
  show Cert.Spec.deg (V c main_arg0) ⟨256 * t.val + r.val, hlt⟩ = Cert.Spec.deg (V c main_arg0) ⟨win0_1.index t 0 * 256 + 1 * r.val, _⟩
  congr 1
  apply Fin.ext
  show 256 * t.val + r.val = win0_1.index t 0 * 256 + 1 * r.val
  rw [e2]; omega

/-- An entry of the result array is in point t's block iff it lies in the block's range. -/
private theorem mem_blk0 (t : Fin cfg0.N) (i : S8192.Idx) :
    i ∈ ((cfg0.win 1).blk t).view.set ↔ ∀ a : Fin 1, win0_1.index t a * S256.size a ≤ (i a).val ∧ (i a).val < win0_1.index t a * S256.size a + S256.size a := by
  show i ∈ ((View.whole main_v0).slice (win0_1.rect t)).set ↔ _
  rw [View.set_slice_whole, Rect.mem_set_unit]
  exact Iff.rfl

/-- After all 32 points the result array of region 0 holds, at p, the sum of row p of the array the region found in main_arg0. -/
theorem final0 (c : Dev nD) : (dat0 (F := Ideal) V c).arrAt 1 cfg0.N = Cert.Spec.rowsum (V c main_arg0) :=
  (dat0 (F := Ideal) V c).arrAt_eq_of_cover 1 (Cert.Spec.rowsum (V c main_arg0)) (fun t _ => flushed0_eq V c t) fun i => by
    have hi : (i 0).val < 8192 := (i 0).isLt
    have hq : (i 0).val / 256 < cfg0.N := by rw [show cfg0.N = 32 from N_0]; omega
    obtain ⟨-, -, e2⟩ := blockIndex0 ⟨(i 0).val / 256, hq⟩
    refine ⟨⟨(i 0).val / 256, hq⟩, flush0_1 _, ?_⟩
    rw [mem_blk0]
    intro a
    match a with
    | ⟨0, _⟩ =>
      show win0_1.index ⟨(i 0).val / 256, hq⟩ 0 * 256 ≤ (i 0).val ∧ (i 0).val < win0_1.index ⟨(i 0).val / 256, hq⟩ 0 * 256 + 256
      rw [e2]
      show (i 0).val / 256 * 256 ≤ (i 0).val ∧ (i 0).val < (i 0).val / 256 * 256 + 256
      omega

end Cert.KernelIdeal.Val

end
-- ==== Proof.KI.Pay1.lean ====
/- One tile's arithmetic at the ideal values, read at the accumulator's one entry: what the body adds to the accumulator is the tile's sum of weighted clipped squared distances. -/
import proofs.«163685_j4286377361973_1_alg».proof.Proof.Gen.KernelIdeal.Skeleton
import proofs.«163685_j4286377361973_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

/-! ## The row sums of squares -/

/-- The sum along the lanes of a block's entrywise square, read at row p: the sum of the squares of row p. -/
private theorem rowsq_apply (v : Vec Ideal S1024x64 .f32) (p : Fin 1024) :
    multiReduction (F := Ideal) .add [1] S1024
        (mulf (shapeCast S1024x64 v shapeCasts_S1024x64_S1024x64) (shapeCast S1024x64 v shapeCasts_S1024x64_S1024x64))
        0x00000000#32 reduces_S1024x64_S1024 (.inl rfl) rfl (ix1 p)
      = ∑ k : Fin 64, v (ix2 p k) * v (ix2 p k) := by
  rw [shapeCast_self v shapeCasts_S1024x64_S1024x64]
  exact (Cert.LibKeepdims.lane_sum_apply (mulf v v) reduces_S1024x64_S1024 (.inl rfl) rfl p).trans
    (Finset.sum_congr rfl fun k _ => mulf_apply v v (ix2 p k))

/-! ## The product of one block with the other's transpose -/

private theorem gram_lhs_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
private theorem gram_lhs_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
private theorem gram_rhs_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
private theorem gram_rhs_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of block a with the transpose of block b, into zero, read at (p, q): the inner product of row p of a
    and row q of b (the narrowing to bf16 is the identity at the ideal values). -/
private theorem gram_apply (a b : Vec Ideal S1024x64 .f32) (p q : Fin 1024) :
    matmul dot_S1024x64_S64x1024_S1024x1024_1_0_0_1_n_n none
        (truncf .bf16 (shapeCast S1024x64 a shapeCasts_S1024x64_S1024x64) bitsLt_bf16_f32)
        (transpose S64x1024 [1, 0] (truncf .bf16 (shapeCast S1024x64 b shapeCasts_S1024x64_S1024x64) bitsLt_bf16_f32)
          transposes_S1024x64_p1_0_S64x1024)
        (constant (F := Ideal) S1024x1024 .f32 0x00000000#32) (ix2 p q)
      = ∑ k : Fin 64, a (ix2 p k) * b (ix2 q k) := by
  rw [shapeCast_self a shapeCasts_S1024x64_S1024x64, shapeCast_self b shapeCasts_S1024x64_S1024x64]
  refine (Ideal.matmul_constant_zero_apply dot_S1024x64_S64x1024_S1024x1024_1_0_0_1_n_n none _ _ (ix2 p q)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun ax => Fin.ext (by
    match ax with
    | ⟨0, _⟩ => exact gram_lhs_0 _ _
    | ⟨1, _⟩ => exact (gram_lhs_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun ax => Fin.ext (by
    match ax with
    | ⟨0, _⟩ => exact (gram_rhs_0 _ _).trans hk
    | ⟨1, _⟩ => exact gram_rhs_1 _ _)
  rw [el, er]
  exact congrArg (a (ix2 p k) * ·) ((transpose_ix2_apply (truncf (F := Ideal) .bf16 b bitsLt_bf16_f32) transposes_S1024x64_p1_0_S64x1024 k q).trans
    (truncf_apply b bitsLt_bf16_f32 (ix2 q k)))

/-! ## The clipped squared distances -/

/-- The column of one block's sums broadcast across, plus the other block's sums laid as a row and broadcast down,
    minus twice the products, clipped below at zero, read at (p, q). -/
private theorem clip_apply (si sj : FVec Ideal S1024 .f32) (g : FVec Ideal S1024x1024 .f32) (p q : Fin 1024) :
    maximumf
        (subf
          (addf
            (broadcastTo S1024x1024 (shapeCast S1024x1 si shapeCasts_S1024_S1024x1) broadcasts_S1024x1_S1024x1024)
            (broadcastTo S1024x1024
              (transpose S1x1024 [1, 0] (shapeCast S1024x1 sj shapeCasts_S1024_S1024x1) transposes_S1024x1_p1_0_S1x1024)
              broadcasts_S1x1024_S1024x1024))
          (mulf (broadcast S1024x1024 (Scalar.ofBits (F := Ideal) .f32 0x40000000#32)) g))
        (broadcast S1024x1024 (Scalar.ofBits (F := Ideal) .f32 0x00000000#32)) (ix2 p q)
      = max ((si (ix1 p) + sj (ix1 q)) - (Ideal.ofBits .f32 0x40000000#32 : EReal) * g (ix2 p q))
          (Ideal.ofBits .f32 0x00000000#32 : EReal) := by
  refine (maximumf_apply _ _ _).trans ?_
  refine congrArg₂ max ?_ rfl
  refine (subf_apply _ _ _).trans ?_
  refine congrArg₂ (· - ·) ?_ rfl
  refine (addf_apply _ _ _).trans ?_
  exact congrArg₂ (· + ·)
    (Cert.LibKeepdims.column_broadcast_apply si shapeCasts_S1024_S1024x1 broadcasts_S1024x1_S1024x1024 p q)
    (Cert.LibKeepdims.row_of_column_broadcast_apply sj shapeCasts_S1024_S1024x1 transposes_S1024x1_p1_0_S1x1024
      broadcasts_S1x1024_S1024x1024 p q)

/-! ## The two sums: along the lanes, then down the column -/

/-- The lane sums of a tile, cast to a column, summed down the column and cast to the one entry: the double sum. -/
private theorem total_apply (t : FVec Ideal S1024x1024 .f32) :
    shapeCast S1x1
        (multiReduction (F := Ideal) .add [0] S1
          (shapeCast S1024x1
            (multiReduction (F := Ideal) .add [1] S1024 t 0x00000000#32 reduces_S1024x1024_S1024 (.inl rfl) rfl)
            shapeCasts_S1024_S1024x1)
          0x00000000#32 reduces_S1024x1_S1 (.inl rfl) rfl)
        shapeCasts_S1_S1x1 (ix2 (0 : Fin 1) (0 : Fin 1))
      = ∑ r : Fin 1024, ∑ c : Fin 1024, t (ix2 r c) := by
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single _ 0x00000000#32 reduces_S1024x1_S1 (.inl rfl) rfl (ix1 (0 : Fin 1))).trans ?_
  show ∑ r : Fin 1024, _ = _
  refine Finset.sum_congr rfl fun r _ => ?_
  refine (shapeCast_apply _ shapeCasts_S1024_S1024x1 _ (ix1 r) ?_).trans ?_
  · rw [Shape.rowMajor_val_one, Shape.rowMajor_val_two]
    show r.val = r.val * 1 + 0
    omega
  exact Cert.LibKeepdims.lane_sum_apply t reduces_S1024x1024_S1024 (.inl rfl) rfl r

/-- A tile's sum from its three blocks: over the tile's pairs (r, c), the weight times the clipped squared distance of row r of the first block of Z and row c of the second. -/
def tileSum (yi yj : Vec Ideal S1024x64 .f32) (w : Vec Ideal S1024x1024 .f32) : EReal :=
  ∑ r : Fin 1024, ∑ c : Fin 1024, w (ix2 r c) *
    max (((∑ k : Fin 64, yi (ix2 r k) * yi (ix2 r k)) + (∑ k : Fin 64, yj (ix2 c k) * yj (ix2 c k)))
      - (Ideal.ofBits .f32 0x40000000#32 : EReal) * (∑ k : Fin 64, yi (ix2 r k) * yj (ix2 c k))) (Ideal.ofBits .f32 0x00000000#32 : EReal)

/-- The body's sum, at the accumulator's entry: what the accumulator held plus the tile's sum. -/
theorem pay2_apply (yi yj : Vec Ideal S1024x64 .f32) (w : Vec Ideal S1024x1024 .f32) (acc : Vec Ideal S1x1 .f32) :
    k1_pay2 (F := Ideal) yi yj w acc (ix2 (0 : Fin 1) (0 : Fin 1)) = acc (ix2 (0 : Fin 1) (0 : Fin 1)) + tileSum yi yj w := by
  unfold k1_pay2
  refine (addf_apply _ _ _).trans ?_
  refine congrArg₂ (· + ·) (congrFun (shapeCast_self acc shapeCasts_S1x1_S1x1) _) ?_
  refine (total_apply _).trans ?_
  unfold tileSum
  refine Finset.sum_congr rfl fun r _ => Finset.sum_congr rfl fun c _ => ?_
  refine (mulf_apply _ _ _).trans ?_
  refine congrArg (w (ix2 r c) * ·) ?_
  refine (clip_apply _ _ _ r c).trans ?_
  exact congrArg₂ max
    (congrArg₂ (· - ·) (congrArg₂ (· + ·) (rowsq_apply yi r) (rowsq_apply yj c))
      (congrArg ((Ideal.ofBits .f32 0x40000000#32 : EReal) * ·) (gram_apply yi yj r c))) rfl

/-- The reset value, at the accumulator's entry: the zero word. -/
theorem pay1_apply : k1_pay1 (F := Ideal) (ix2 (0 : Fin 1) (0 : Fin 1)) = (Ideal.ofBits .f32 0x00000000#32 : EReal) := by
  unfold k1_pay1
  rfl

end Cert.KernelIdeal.Val

end
-- ==== Proof.KI.Value1.lean ====
/- What region 1 leaves in its 1 × 1 result array, at the ideal values: the accumulation chain over the 64 tiles. -/
import proofs.«163685_j4286377361973_1_alg».proof.Proof.KI.Data
import proofs.«163685_j4286377361973_1_alg».proof.Proof.Spec
import proofs.«163685_j4286377361973_1_alg».proof.Proof.KI.Pay1
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- Where each window's block sits at tile t: the tile W(i, j) at block (t / 8, t % 8), row block i of Z at block t / 8,
    row block j of Z at block t % 8. -/
private theorem tile_index1 : ∀ t : Fin cfg1.N, win1_0.index t 0 = t.val / 8 ∧ win1_0.index t 1 = t.val % 8 ∧ win1_1.index t 0 = t.val / 8
    ∧ win1_1.index t 1 = 0 ∧ win1_2.index t 0 = t.val % 8 ∧ win1_2.index t 1 = 0 :=
  (by decide +kernel : ∀ t : Fin grid1.N, win1_0.index t 0 = t.val / 8 ∧ win1_0.index t 1 = t.val % 8 ∧ win1_1.index t 0 = t.val / 8
    ∧ win1_1.index t 1 = 0 ∧ win1_2.index t 0 = t.val % 8 ∧ win1_2.index t 1 = 0)

/-- A tile's number is below 64. -/
private theorem tile_lt1 (t : Fin cfg1.N) : t.val < 64 := lt_of_lt_of_eq t.isLt N_1

/-- The three blocks of tile t and the two arrays, at their literal types. -/
private abbrev wTile1 (c : Dev nD) (t : Fin cfg1.N) : Vec Ideal S1024x1024 .f32 := iblk1 (F := Ideal) V c 0 t
private abbrev ziTile1 (c : Dev nD) (t : Fin cfg1.N) : Vec Ideal S1024x64 .f32 := iblk1 (F := Ideal) V c 1 t
private abbrev zjTile1 (c : Dev nD) (t : Fin cfg1.N) : Vec Ideal S1024x64 .f32 := iblk1 (F := Ideal) V c 2 t
private abbrev wArr1 (c : Dev nD) : Cert.Spec.SW.Idx → EReal := V c main_arg0
private abbrev zArr1 (c : Dev nD) : Cert.Spec.SZ.Idx → EReal := V c main_v4

/-- Entry (r, q) of tile t's block of W is W at row r of tile-row t / 8 and row q of tile-row t % 8. -/
private theorem wTile1_apply (c : Dev nD) (t : Fin cfg1.N) (r q : Fin 1024) :
    wTile1 V c t (ix2 r q)
      = wArr1 V c (ix2 (Cert.Spec.rowOf (Cert.Spec.tileRow t.val (tile_lt1 t)) r) (Cert.Spec.rowOf (Cert.Spec.tileCol t.val (tile_lt1 t)) q)) := by
  have hi := tile_index1 t
  unfold wTile1 iblk1
  rw [View.read_apply]
  show V c main_arg0 _ = V c main_arg0 _
  congr 1
  funext a
  apply Fin.ext
  match a with
  | ⟨0, _⟩ => show win1_0.index t 0 * 1024 + 1 * r.val = 1024 * (t.val / 8) + r.val; rw [hi.1]; omega
  | ⟨1, _⟩ => show win1_0.index t 1 * 1024 + 1 * q.val = 1024 * (t.val % 8) + q.val; rw [hi.2.1]; omega

/-- Entry (r, k) of tile t's first block of Z is Z at row r of tile-row t / 8. -/
private theorem ziTile1_apply (c : Dev nD) (t : Fin cfg1.N) (r : Fin 1024) (k : Fin 64) :
    ziTile1 V c t (ix2 r k) = zArr1 V c (ix2 (Cert.Spec.rowOf (Cert.Spec.tileRow t.val (tile_lt1 t)) r) k) := by
  have hi := tile_index1 t
  unfold ziTile1 iblk1
  rw [View.read_apply]
  show V c main_v4 _ = V c main_v4 _
  congr 1
  funext a
  apply Fin.ext
  match a with
  | ⟨0, _⟩ => show win1_1.index t 0 * 1024 + 1 * r.val = 1024 * (t.val / 8) + r.val; rw [hi.2.2.1]; omega
  | ⟨1, _⟩ => show win1_1.index t 1 * 64 + 1 * k.val = k.val; rw [hi.2.2.2.1]; omega

/-- Entry (q, k) of tile t's second block of Z is Z at row q of tile-row t % 8. -/
private theorem zjTile1_apply (c : Dev nD) (t : Fin cfg1.N) (q : Fin 1024) (k : Fin 64) :
    zjTile1 V c t (ix2 q k) = zArr1 V c (ix2 (Cert.Spec.rowOf (Cert.Spec.tileCol t.val (tile_lt1 t)) q) k) := by
  have hi := tile_index1 t
  unfold zjTile1 iblk1
  rw [View.read_apply]
  show V c main_v4 _ = V c main_v4 _
  congr 1
  funext a
  apply Fin.ext
  match a with
  | ⟨0, _⟩ => show win1_2.index t 0 * 1024 + 1 * q.val = 1024 * (t.val % 8) + q.val; rw [hi.2.2.2.2.1]; omega
  | ⟨1, _⟩ => show win1_2.index t 1 * 64 + 1 * k.val = k.val; rw [hi.2.2.2.2.2]; omega

/-- The sum over tile t's three blocks is the share of tile (t / 8, t % 8) in the total: term by term the same weight
    and the same two rows of Z. -/
private theorem tileSum_eq_blockTot1 (c : Dev nD) (t : Fin cfg1.N) :
    tileSum (ziTile1 V c t) (zjTile1 V c t) (wTile1 V c t)
      = Cert.Spec.blockTot (wArr1 V c) (zArr1 V c) (Cert.Spec.tileRow t.val (tile_lt1 t)) (Cert.Spec.tileCol t.val (tile_lt1 t)) := by
  unfold tileSum Cert.Spec.blockTot Cert.Spec.term Cert.Spec.sq Cert.Spec.dotp
  refine Finset.sum_congr rfl fun r _ => Finset.sum_congr rfl fun q _ => ?_
  rw [wTile1_apply]
  simp only [ziTile1_apply, zjTile1_apply]

/-- The accumulator after tile n is the chain's value after tile n: zero plus tile 0's share, then each later tile's
    share added to what the tile before left — by induction on n. -/
private theorem accAt_eq_chainAt1 (c : Dev nD) : ∀ (n : ℕ) (h : n < cfg1.N) (h' : n < 64),
    accAt (F := Ideal) V c n h (ix2 (0 : Fin 1) (0 : Fin 1)) = Cert.Spec.chainAt (wArr1 V c) (zArr1 V c) n h'
  | 0, h, h' => by
    rw [accAt_zero, pay2_apply, pay1_apply]
    show _ + tileSum (ziTile1 V c ⟨0, h⟩) (zjTile1 V c ⟨0, h⟩) (wTile1 V c ⟨0, h⟩) = _
    rw [tileSum_eq_blockTot1]
    rfl
  | n + 1, h, h' => by
    rw [accAt_succ, pay2_apply, accAt_eq_chainAt1 c n (Nat.lt_of_succ_lt h) (Nat.lt_of_succ_lt h')]
    show _ + tileSum (ziTile1 V c ⟨n + 1, h⟩) (zjTile1 V c ⟨n + 1, h⟩) (wTile1 V c ⟨n + 1, h⟩) = _
    rw [tileSum_eq_blockTot1]
    rfl

/-- The last tile, number 63. -/
private abbrev lastTile1 : Fin cfg1.N := ⟨63, lt_of_lt_of_eq (by decide : 63 < 64) N_1.symm⟩

/-- The accumulator after the last tile, as contents of the 1 × 1 result array. -/
private abbrev lastAcc1 (c : Dev nD) : Buf (Elt Ideal) ((c : Thread nD τ).loc main_v5) := accAt (F := Ideal) V c 63 lastTile1.isLt

/-- The one write-back, after the last tile, writes the accumulator: its block is the whole 1 × 1 array, read at zero
    offsets. -/
private theorem flushed_eq1 (c : Dev nD) (t : Fin cfg1.N) (hf : (cfg1.win 3).flush t = true) :
    (dat1 (F := Ideal) V c).flushed 3 t = ((cfg1.win 3).blk t).view.read (Elt Ideal) (lastAcc1 V c) := by
  have h63 : t.val = 63 := by have := (flush1_3 t).mp hf; have := tile_lt1 t; omega
  obtain rfl : t = lastTile1 := Fin.ext h63
  show (cfg1.win 3).cut (grid1.coords lastTile1) ((dat1 (F := Ideal) V c).after 3 lastTile1) = _
  rw [after1_3]
  have hz : (fun a => win1_3.index lastTile1 a * main_v5.ty.shape.size a) = fun _ => 0 := funext fun a => by fin_cases a <;> decide +kernel
  exact (Memref.read_access_unit_zero (Elt Ideal) main_v5 hz (fun a => by rw [congrFun hz a]; simp) (lastAcc1 V c)).symm

/-- So the result array ends holding the accumulator after the last tile: that tile's block covers the array's one
    entry. -/
private theorem arrAt_eq_lastAcc1 (c : Dev nD) : (dat1 (F := Ideal) V c).arrAt 3 cfg1.N = lastAcc1 V c :=
  (dat1 (F := Ideal) V c).arrAt_eq_of_cover 3 (lastAcc1 V c) (flushed_eq1 V c) fun i =>
    ⟨lastTile1, (flush1_3 lastTile1).mpr rfl, by
      show i ∈ ((View.whole main_v5).slice (win1_3.rect lastTile1)).set
      rw [View.set_slice_whole, Rect.mem_set_unit]
      intro a
      have h0 : (i 0 : Nat) < 1 := (i 0).isLt
      have h1 : (i 1 : Nat) < 1 := (i 1).isLt
      match a with
      | ⟨0, _⟩ => show win1_3.index lastTile1 0 * win1_3.size 0 ≤ (i 0 : Nat) ∧ (i 0 : Nat) < win1_3.index lastTile1 0 * win1_3.size 0 + win1_3.xsize (grid1.coords lastTile1) 0
                  rw [show win1_3.index lastTile1 0 * win1_3.size 0 = 0 from by decide +kernel, show win1_3.xsize (grid1.coords lastTile1) 0 = 1 from by decide +kernel]; omega
      | ⟨1, _⟩ => show win1_3.index lastTile1 1 * win1_3.size 1 ≤ (i 1 : Nat) ∧ (i 1 : Nat) < win1_3.index lastTile1 1 * win1_3.size 1 + win1_3.xsize (grid1.coords lastTile1) 1
                  rw [show win1_3.index lastTile1 1 * win1_3.size 1 = 0 from by decide +kernel, show win1_3.xsize (grid1.coords lastTile1) 1 = 1 from by decide +kernel]; omega⟩

/-- After all 64 points the 1 × 1 result array of region 1 holds the accumulation chain's last value, over the arrays the region found in main_arg0 (W) and main_v4 (Z). -/
theorem final1 (c : Dev nD) :
    (dat1 (F := Ideal) V c).arrAt 3 cfg1.N (ix2 (0 : Fin 1) (0 : Fin 1)) = Cert.Spec.chainAt (V c main_arg0) (V c main_v4) 63 (by decide) := by
  exact (congrFun (arrAt_eq_lastAcc1 V c) _).trans (accAt_eq_chainAt1 V c 63 lastTile1.isLt (by decide))

end Cert.KernelIdeal.Val

end
-- ==== Proof.Algebra.lean ====
/- The accumulation chain over the 64 tiles, in row-major order from zero, is the total over all pairs: addition of extended reals is commutative and associative, and the tiles partition the pairs. -/
import proofs.«163685_j4286377361973_1_alg».proof.Proof.Spec

noncomputable section

namespace Cert.Spec

open Idealize.ShloMosaic Idealize.ShloMosaic.ValueIdx

variable (W : SW.Idx → EReal) (Z : SZ.Idx → EReal)

/-! ## Re-indexing sums, over any commutative additive monoid -/

section Reindex

variable {M : Type*} [AddCommMonoid M]

/-- The 8 tile-rows of 1024 rows each partition the 8192 rows: summing over (tile-row, row within it) is summing over
    all rows. The pair (i, r) is sent to row 1024·i + r, a bijection onto the rows. -/
private theorem sum_rowOf (g : Fin 8192 → M) :
    ∑ i : Fin 8, ∑ r : Fin 1024, g (rowOf i r) = ∑ R : Fin 8192, g R := by
  rw [← Fintype.sum_prod_type']
  refine Fintype.sum_equiv (finProdFinEquiv (m := 8) (n := 1024)) _ _ (fun p => ?_)
  congr 1
  apply Fin.ext
  simp [rowOf, finProdFinEquiv]
  omega

/-- Summing tile by tile, rows then columns within each tile, is summing over all pairs. -/
private theorem sum_tiles (f : Fin 8192 → Fin 8192 → M) :
    ∑ i : Fin 8, ∑ j : Fin 8, ∑ r : Fin 1024, ∑ c : Fin 1024, f (rowOf i r) (rowOf j c)
      = ∑ R : Fin 8192, ∑ C : Fin 8192, f R C := by
  have h1 : ∀ i : Fin 8, ∑ j : Fin 8, ∑ r : Fin 1024, ∑ c : Fin 1024, f (rowOf i r) (rowOf j c)
      = ∑ r : Fin 1024, ∑ C : Fin 8192, f (rowOf i r) C := by
    intro i
    rw [Finset.sum_comm]
    refine Finset.sum_congr rfl (fun r _ => ?_)
    exact sum_rowOf (fun C => f (rowOf i r) C)
  simp only [h1]
  exact sum_rowOf (fun R => ∑ C : Fin 8192, f R C)

/-- The 64 tiles in row-major order are the 8 × 8 tiles: tile t is tile (t / 8, t % 8), and (i, j) ↦ 8·i + j is a
    bijection from pairs onto tile numbers. -/
private theorem sum_tileIdx (B : Fin 8 → Fin 8 → M) :
    ∑ t : Fin 64, B (tileRow t.val t.isLt) (tileCol t.val t.isLt) = ∑ i : Fin 8, ∑ j : Fin 8, B i j := by
  rw [← Fintype.sum_prod_type']
  symm
  refine Fintype.sum_equiv (finProdFinEquiv (m := 8) (n := 8)) _ _ (fun p => ?_)
  have hr : tileRow (finProdFinEquiv p).val (finProdFinEquiv p).isLt = p.1 := by
    apply Fin.ext
    simp [tileRow, finProdFinEquiv]
    omega
  have hc : tileCol (finProdFinEquiv p).val (finProdFinEquiv p).isLt = p.2 := by
    apply Fin.ext
    simp [tileCol, finProdFinEquiv]
  rw [hr, hc]

end Reindex

/-- The accumulator after tile n is the sum of the shares of tiles 0, …, n: by induction on n, the zero word being
    zero and zero being neutral for addition. -/
private theorem chainAt_eq_sum (n : ℕ) (h : n < 64) :
    chainAt W Z n h
      = ∑ t ∈ Finset.range (n + 1), (if ht : t < 64 then blockTot W Z (tileRow t ht) (tileCol t ht) else 0) := by
  induction n with
  | zero =>
    rw [chainAt, Ideal.ofBits_zero_f32, zero_add, Finset.sum_range_one, dif_pos h]
  | succ n ih =>
    rw [chainAt, ih (Nat.lt_of_succ_lt h), Finset.sum_range_succ _ (n + 1), dif_pos h]

/-- The chain's last value is the total. -/
theorem chainAt_last_eq_tot : chainAt W Z 63 (by decide) = tot W Z := by
  rw [chainAt_eq_sum, Finset.sum_range]
  have h2 : ∀ t : Fin 64, (if ht : t.val < 64 then blockTot W Z (tileRow t.val ht) (tileCol t.val ht) else 0)
      = blockTot W Z (tileRow t.val t.isLt) (tileCol t.val t.isLt) := fun t => dif_pos t.isLt
  simp only [h2]
  rw [sum_tileIdx (fun i j => blockTot W Z i j)]
  unfold blockTot tot
  exact sum_tiles (fun R C => term W Z R C)

end Cert.Spec

end
-- ==== Proof.KI.Result.lean ====
/-
  The kernel program's result at the ideal values is the specification's loss.

  Region 0 leaves the row sums of W; the first host stretch turns them and Y into Z; region 1 leaves the accumulation
  chain over the 64 tiles of W and Z, which is the total over all pairs; the last host stretch reshapes that one number
  and divides it by 2 · 8192.
-/
import proofs.«163685_j4286377361973_1_alg».proof.Proof.KI.Launch
import proofs.«163685_j4286377361973_1_alg».proof.Proof.KI.Value0
import proofs.«163685_j4286377361973_1_alg».proof.Proof.KI.Value1
import proofs.«163685_j4286377361973_1_alg».proof.Proof.Algebra
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- On entry to region 1 the tile array is W as launched, -/
theorem Vb_arg0 (c : Dev nD) : Vb m c main_arg0 = m ((c : Thread nD τ).loc main_arg0) :=
  (congrFun (V2_eq m c) _).symm.trans ((Gen.V2_of m (outs m) c main_arg0 (by decide)).trans (Gen.V1_of m (outs m) c main_arg0 (by decide)))

/-- and the array both row-block windows read is Z: Y with each row divided by the square root of what region 0 left
    for that row. -/
theorem Vb_v4 (c : Dev nD) :
    Vb m c main_v4 = Cert.Spec.zOf bcast_S8192_S8192x1_0 bcast_S8192x1_S8192x64_0_1 (Dout m c) (m ((c : Thread nD τ).loc main_arg1)) := by
  show StableHlo.after hostOps1 (Function.update (Gen.V0 m c) main_v0 (Dout m c)) (Proc.devRef .tc main_v4) = _
  after_results
  rw [Function.update_self, Function.update_of_ne (StableHlo.devRef_ne_of_ne (by decide))]
  rfl

/-- The last host stretch: the total reshaped to a scalar and divided by 2 · 8192. -/
theorem V4_v7 (c : Dev nD) :
    Gen.V4 m (outs m) c main_v7
      = Host.divf (F := Ideal) (φ := .f32) (shapeCast S_ (Lout m c) shapeCasts_S1x1_S_) (constant (F := Ideal) S_ .f32 0x46800000#32) := by
  show StableHlo.after hostOps2 (Function.update (Gen.V2 m (outs m) c) main_v5 (outs m 3 main_v5 c)) (Proc.devRef .tc main_v7) = _
  after_results
  rw [Function.update_self, outs_v5]
  rfl

/-- The one entry of what region 1 leaves is the total over all pairs, for W as launched and Z made from W's row sums
    and Y: region 0 leaves the row sums, region 1 the accumulation chain, and the chain is the total. -/
theorem Lout_eq (c : Dev nD) :
    Lout m c (ix2 (0 : Fin 1) (0 : Fin 1))
      = Cert.Spec.tot (m ((c : Thread nD τ).loc main_arg0))
          (Cert.Spec.zOf bcast_S8192_S8192x1_0 bcast_S8192x1_S8192x64_0_1 (Cert.Spec.rowsum (m ((c : Thread nD τ).loc main_arg0))) (m ((c : Thread nD τ).loc main_arg1))) := by
  have hD : Dout m c = Cert.Spec.rowsum (m ((c : Thread nD τ).loc main_arg0)) := final0 (Va m) c
  show (dat1 (F := Ideal) (Vb m) c).arrAt 3 cfg1.N (ix2 (0 : Fin 1) (0 : Fin 1)) = _
  rw [final1 (Vb m) c, Cert.Spec.chainAt_last_eq_tot, Vb_arg0, Vb_v4, hD]

/-- The program's result is the specification's loss of its arguments. -/
theorem result_eq (c : Dev nD) :
    Gen.V4 m (outs m) c main_v7
      = Cert.Spec.loss (m ((c : Thread nD τ).loc main_arg0)) bcast_S8192_S8192x1_0 bcast_S8192x1_S8192x64_0_1 (m ((c : Thread nD τ).loc main_arg1)) := by
  rw [V4_v7]
  unfold Cert.Spec.loss
  refine congrArg (fun x => Host.divf (F := Ideal) (φ := .f32) x (constant (F := Ideal) S_ .f32 0x46800000#32)) ?_
  funext i
  refine (shapeCast_apply (Lout m c) shapeCasts_S1x1_S_ i (ix2 (0 : Fin 1) (0 : Fin 1)) ?_).trans (Lout_eq m c)
  show (S1x1.rowMajor (ix2 (0 : Fin 1) (0 : Fin 1))).val = (S_.rowMajor i).val
  rw [Shape.rowMajor_val_two]
  have h : (S_.rowMajor i).val < 1 := (S_.rowMajor i).isLt
  show 0 * 1 + 0 = _
  omega

/-- The kernel program's run at the ideal values: its result is the loss, its arguments end unchanged. -/
theorem run : θ_run (defs (F := Ideal)) (onTc (τ := τ) (main (F := Ideal))) ⟨m, fun _ => 0, ρ⟩ (fun r => ∀ c : Dev nD,
      r.2.mem ((c.tc : Thread nD τ).loc main_v7)
        = Cert.Spec.loss (m ((c.tc : Thread nD τ).loc main_arg0)) bcast_S8192_S8192x1_0 bcast_S8192x1_S8192x64_0_1 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (run_named m ρ)

end Cert.KernelIdeal.Val

end
-- ==== Proof.RefValue.lean ====
/- The reference's result at the ideal values: the loss of the specification, of its own arguments. -/
import proofs.«163685_j4286377361973_1_alg».proof.Proof.Gen.ReferenceIdeal.Run
import proofs.«163685_j4286377361973_1_alg».proof.Proof.Gen.ReferenceIdeal.Read
import proofs.«163685_j4286377361973_1_alg».proof.Proof.Spec
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen
open Idealize.ShloMosaic Idealize.ShloMosaic.TcCoe Idealize.SL.Sem Idealize.ShloMosaic.ValueIdx

/-- The first host sum is the degree vector: row i of W summed from the zero word. -/
theorem v0_eq (W : (⟨S8192x8192, .f32⟩ : BufTy).Contents (Elt Ideal)) :
    Read.val_main_v0 (F := Ideal) W = Cert.Spec.rowsum W := by
  funext i
  rw [Read.val_main_v0_apply, Read.val_main_cst_apply, Ideal.ofBits_def, Ideal.ofBits_zero_f32, zero_add]
  refine Finset.sum_congr rfl fun k _ => congrArg W ?_
  exact funext fun a => by match a with | ⟨0, _⟩ => rfl | ⟨1, _⟩ => rfl

/-- The scaled array: Y with each row divided by the square root of its row's degree. -/
theorem v4_eq (W : (⟨S8192x8192, .f32⟩ : BufTy).Contents (Elt Ideal)) (Y : (⟨S8192x64, .f32⟩ : BufTy).Contents (Elt Ideal)) :
    Read.val_main_v4 (F := Ideal) W Y
      = Cert.Spec.zOf bcast_S8192_S8192x1_0 bcast_S8192x1_S8192x64_0_1 (Cert.Spec.rowsum W) Y := by
  unfold Read.val_main_v4 Read.val_main_v3 Read.val_main_v2 Read.val_main_v1 Cert.Spec.zOf
  rw [v0_eq]

/-- The squared length of row r of the scaled array, as the second host sum reads it. -/
theorem v6_at (W : (⟨S8192x8192, .f32⟩ : BufTy).Contents (Elt Ideal)) (Y : (⟨S8192x64, .f32⟩ : BufTy).Contents (Elt Ideal))
    (r : Fin 8192) :
    Read.val_main_v6 (F := Ideal) W Y (ix1 r) = Cert.Spec.sq (Read.val_main_v4 (F := Ideal) W Y) r := by
  rw [Read.val_main_v6_apply, Read.val_main_cst_0_apply, Ideal.ofBits_def, Ideal.ofBits_zero_f32, zero_add]
  unfold Cert.Spec.sq
  refine Finset.sum_congr rfl fun k _ => ?_
  rw [Read.val_main_v5_apply, Ideal.mulf_def]
  have e : Read.idx_main_v6 (ix1 r) k = ix2 r k :=
    funext fun a => by match a with | ⟨0, _⟩ => rfl | ⟨1, _⟩ => rfl
  rw [e]

/-- The inner product of rows r and c of the scaled array, as the contraction with the transpose reads it. -/
theorem v13_at (W : (⟨S8192x8192, .f32⟩ : BufTy).Contents (Elt Ideal)) (Y : (⟨S8192x64, .f32⟩ : BufTy).Contents (Elt Ideal))
    (r c : Fin 8192) :
    Read.val_main_v13 (F := Ideal) W Y (ix2 r c) = Cert.Spec.dotp (Read.val_main_v4 (F := Ideal) W Y) r c := by
  rw [Read.val_main_v13_apply]
  unfold Cert.Spec.dotp
  refine Finset.sum_congr rfl fun k _ => ?_
  rw [Read.val_main_v12_apply]
  have el : Read.lidx_main_v13 (ix2 r c) k = ix2 r k :=
    funext fun a => by match a with | ⟨0, _⟩ => rfl | ⟨1, _⟩ => rfl
  have er : Read.idx_main_v12 (Read.ridx_main_v13 (ix2 r c) k) = ix2 c k :=
    funext fun a => by match a with | ⟨0, _⟩ => rfl | ⟨1, _⟩ => rfl
  rw [el, er]

/-- The pair (r, c)'s entry of the weighted clipped distances is the specification's term. -/
theorem v19_at (W : (⟨S8192x8192, .f32⟩ : BufTy).Contents (Elt Ideal)) (Y : (⟨S8192x64, .f32⟩ : BufTy).Contents (Elt Ideal))
    (r c : Fin 8192) :
    Read.val_main_v19 (F := Ideal) W Y (ix2 r c) = Cert.Spec.term W (Read.val_main_v4 (F := Ideal) W Y) r c := by
  have e9 : Read.idx_main_v7 (Read.idx_main_v9 (ix2 r c)) = ix1 r :=
    funext fun a => by match a with | ⟨0, _⟩ => rfl
  have e10 : Read.idx_main_v8 (Read.idx_main_v10 (ix2 r c)) = ix1 c :=
    funext fun a => by match a with | ⟨0, _⟩ => rfl
  rw [Read.val_main_v19_apply, Read.val_main_v18_apply, Read.val_main_v16_apply, Read.val_main_v11_apply,
    Read.val_main_v9_apply, Read.val_main_v7_apply, Read.val_main_v10_apply, Read.val_main_v8_apply,
    Read.val_main_v15_apply, Read.val_main_v14_apply, Read.val_main_cst_1_apply,
    Read.val_main_v17_apply, Read.val_main_cst_2_apply, e9, e10, v6_at, v6_at, v13_at]
  rfl

/-- The sum over all pairs, from the zero word, is the specification's total. -/
theorem v20_eq (W : (⟨S8192x8192, .f32⟩ : BufTy).Contents (Elt Ideal)) (Y : (⟨S8192x64, .f32⟩ : BufTy).Contents (Elt Ideal)) :
    Read.val_main_v20 (F := Ideal) W Y = fun _ => Cert.Spec.tot W (Read.val_main_v4 (F := Ideal) W Y) := by
  funext i
  rw [Read.val_main_v20_apply, Read.val_main_cst_3_apply, Ideal.ofBits_def, Ideal.ofBits_zero_f32, zero_add, sum_idx2]
  unfold Cert.Spec.tot
  exact Finset.sum_congr rfl fun r _ => Finset.sum_congr rfl fun c _ => v19_at W Y r c

/-- The reference's result term is the specification's loss. -/
theorem result_eq (W : (⟨S8192x8192, .f32⟩ : BufTy).Contents (Elt Ideal)) (Y : (⟨S8192x64, .f32⟩ : BufTy).Contents (Elt Ideal)) :
    Read.val_main_v21 (F := Ideal) W Y
      = Cert.Spec.loss W bcast_S8192_S8192x1_0 bcast_S8192x1_S8192x64_0_1 Y := by
  unfold Read.val_main_v21 Cert.Spec.loss
  rw [v20_eq, v4_eq]
  rfl

/-- The reference's run, read: its result is the specification's loss of its own arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
        = Cert.Spec.loss (m ((c.tc : Thread nD τ).loc main_arg0)) bcast_S8192_S8192x1_0 bcast_S8192x1_S8192x64_0_1 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((Read.val_main_v21_eq _ _).trans (result_eq _ _)), (h c).2⟩)
    (Value.run (F := Ideal) m ρ)

end Cert.ReferenceIdeal.RefVal

end
-- ==== Proof.lean ====
/-
  The certificate of the normalized-Laplacian embedding loss.

  Both programs compute, from a weight matrix W [8192, 8192] and an embedding Y [8192, 64], the number
      ( Σ over all pairs (r, c) of  W(r, c) · max(|Z_r|² + |Z_c|² − 2·⟨Z_r, Z_c⟩, 0) ) / (2 · 8192),
  where Z is Y with row r divided by the square root of the r-th row sum of W.
  The kernel program does it in two pipelined regions around host operations: the first sums the rows of W in blocks of
  256 rows; the host forms Z; the second walks the 8 × 8 tiles of W in row-major order, forms each tile's terms from the
  two row blocks of Z (the products by a matrix multiplication whose operands are rounded to bf16, a rounding that is the
  identity at the ideal values), sums them and accumulates the tiles' sums from zero; the host divides.
  The reference sums all pairs at once. At the ideal values addition is commutative and associative on the extended
  reals, so the tile-by-tile accumulation is the one sum: no finiteness of the inputs is used.

  The three frames: the reference's is its run with the result dropped; the kernel program's (at the word level and at
  the ideal values, one text at any float values) is its run through the two regions, the second of which reads the one
  array Z through two windows, each holding half of it.
-/
import proofs.«163685_j4286377361973_1_alg».proof.Defs
import proofs.«163685_j4286377361973_1_alg».proof.Proof.Gen.Kernel
import proofs.«163685_j4286377361973_1_alg».proof.Proof.Gen.KernelIdeal
import proofs.«163685_j4286377361973_1_alg».proof.Proof.Gen.ReferenceIdeal
import proofs.«163685_j4286377361973_1_alg».proof.Proof.Gen.Pre_finite_inputs
import proofs.«163685_j4286377361973_1_alg».proof.Proof.K.Launch
import proofs.«163685_j4286377361973_1_alg».proof.Proof.KI.Result
import proofs.«163685_j4286377361973_1_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Frm.frame (F := Bits) m ρ

/-- So does its reading at the ideal values. -/
theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefVal.run m ρ)

/-- The ideal pass rewrote nothing. -/
theorem preserves : Cert.preserves_Kernel_KernelIdeal := trivial

/-- At the ideal values both programs end at the specification's loss of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.loss (m ((c.tc : Thread Cert.KernelIdeal.nD Cert.KernelIdeal.τ).loc Cert.KernelIdeal.main_arg0))
      Cert.KernelIdeal.Facts₀.bcast_S8192_S8192x1_0 Cert.KernelIdeal.Facts₀.bcast_S8192x1_S8192x64_0_1
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ⟨(h c).1.trans ?_, (h c).2⟩) (Cert.ReferenceIdeal.RefVal.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
